-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x32 : Shape := ⟨2, ![1600000, 32]⟩
abbrev S64x96 : Shape := ⟨2, ![64, 96]⟩
abbrev S64 : Shape := ⟨1, ![64]⟩
abbrev S64x128 : Shape := ⟨2, ![64, 128]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S64x96 : S_.BroadcastsInDim S64x96 (![] : Fin 0 → Fin S64x96.rank)
  reducesTo_S64x96_S_d0_1 : S64x96.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v28 : IVec S_ 1) (main_v32 : IVec S1600000 1) (main_v34 : IVec S1600000 32) : IVec S_ 1 :=
  let main_c_11 : IVec S_ 32 := constantI S_ 32 100000#32
  let main_v35 : IVec S1600000 32 := broadcastInDim S1600000 ![] bcast_S_S1600000 main_c_11
  let main_v36 : IVec S1600000 1 := cmpi .slt main_v34 main_v35
  let main_v37 : IVec S1600000 1 := andi main_v32 main_v36
  let main_c_12 : IVec S_ 1 := constantI S_ 1 1#1
  let main_v38 : IVec S_ 1 := (fun x v => Host.reduce IntOp.andi x v reducesTo_S1600000_S_d0 h_S_) main_v37 main_c_12
  let main_v39 : IVec S_ 1 := andi main_v28 main_v38
  main_v39

def fn_part1 {F : FTy → Type} [FloatOps F] (main_arg1 : IVec S2x1600000 32) (main_arg5 : FVec F S64x128 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : IVec S1x1600000 32 := (extractStridedSlice S1x1600000 ![1, 0] · slices_S2x1600000_S1x1600000_1_0) main_arg1
  let main_v30 : IVec S1600000 32 := shapeCast S1600000 main_v29 shapeCasts_S1x1600000_S1600000
  let main_c_10 : IVec S_ 32 := constantI S_ 32 0#32
  let main_v31 : IVec S1600000 32 := broadcastInDim S1600000 ![] bcast_S_S1600000 main_c_10
  let main_v32 : IVec S1600000 1 := cmpi .sge main_v30 main_v31
  let main_v33 : IVec S1x1600000 32 := (extractStridedSlice S1x1600000 ![1, 0] · slices_S2x1600000_S1x1600000_1_0) main_arg1
  let main_v34 : IVec S1600000 32 := shapeCast S1600000 main_v33 shapeCasts_S1x1600000_S1600000
  fn_part2 (F := F) main_v28 main_v32 main_v34

def fn {F : FTy → Type} [FloatOps F] (main_arg0 : FVec F S100000x64 .f32) (main_arg1 : IVec S2x1600000 32) (main_arg2 : FVec F S1600000x32 .f32) (main_arg3 : FVec F S64x96 .f32) (main_arg4 : FVec F S64 .f32) (main_arg5 : FVec F S64x128 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S64x96 .f32 := Host.absf main_arg3
  let main_cst_2 : FVec F S_ .f32 := constant S_ .f32 0x7F800000#32
  let main_v10 : FVec F S64x96 .f32 := broadcastInDim S64x96 ![] bcast_S_S64x96 main_cst_2
  let main_v11 : IVec S64x96 1 := cmpf .olt main_v9 main_v10
  let main_c_3 : IVec S_ 1 := constantI S_ 1 1#1
  let main_v12 : IVec S_ 1 := (fun x v => Host.reduce IntOp.andi x v reducesTo_S64x96_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_v13 main_v16
-- ==== Kernel.lean ====
abbrev S100000x64 : Shape := ⟨2, ![100000, 64]⟩
abbrev S2x1600000 : Shape := ⟨2, ![2, 1600000]⟩
abbrev S1600000x32 : Shape := ⟨2, ![1600000, 32]⟩
abbrev S64x96 : Shape := ⟨2, ![64, 96]⟩
abbrev S64 : Shape := ⟨1, ![64]⟩
abbrev S64x128 : Shape := ⟨2, ![64, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S64x64 : Shape := ⟨2, ![64, 64]⟩
abbrev S64x32 : Shape := ⟨2, ![64, 32]⟩
abbrev S32x64 : Shape := ⟨2, ![32, 64]⟩
abbrev S1x64 : Shape := ⟨2, ![1, 64]⟩
abbrev S16000x64 : Shape := ⟨2, ![16000, 64]⟩
abbrev S16000x32 : Shape := ⟨2, ![16000, 32]⟩
abbrev S10000x64 : Shape := ⟨2, ![10000, 64]⟩

abbrev nBuf : Space → Nat
  | .hbm => 55
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S64x96, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1, .i32⟩
  | .hbm, ⟨20, _⟩ => ⟨S_, .i32⟩
  | .hbm, ⟨21, _⟩ => ⟨S1600000x1, .i32⟩
  | .hbm, ⟨22, _⟩ => ⟨S1600000x1, .i1⟩
  | .hbm, ⟨23, _⟩ => ⟨S1x1, .i32⟩
  | .hbm, ⟨24, _⟩ => ⟨S1600000x1, .i32⟩
  | .hbm, ⟨25, _⟩ => ⟨S1600000x1, .i1⟩
  | .hbm, ⟨26, _⟩ => ⟨S1600000x1, .i1⟩
  | .hbm, ⟨27, _⟩ => ⟨S_, .i1⟩
  | .hbm, ⟨28, _⟩ => ⟨S1600000, .i1⟩
  | .hbm, ⟨29, _⟩ => ⟨S1600000x64, .f32⟩
  | .hbm, ⟨30, _⟩ => ⟨S1600000x64, .i1⟩
  | .hbm, ⟨31, _⟩ => ⟨S_, .f32⟩
  | .hbm, ⟨32, _⟩ => ⟨S1600000x64, .f32⟩
  | .hbm, ⟨33, _⟩ => ⟨S1600000x64, .f32⟩
  | .hbm, ⟨34, _⟩ => ⟨S1600000x64, .bf16⟩
  | .hbm, ⟨35, _⟩ => ⟨S64x64, .f32⟩
  | .hbm, ⟨36, _⟩ => ⟨S64x64, .f32⟩
  | .hbm, ⟨37, _⟩ => ⟨S64x64, .bf16⟩
  | .hbm, ⟨38, _⟩ => ⟨S64x32, .f32⟩
  | .hbm, ⟨39, _⟩ => ⟨S32x64, .f32⟩
  | .hbm, ⟨40, _⟩ => ⟨S32x64, .bf16⟩
  | .hbm, ⟨41, _⟩ => ⟨S1x64, .f32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S64x64, .f32⟩
  | .hbm, ⟨48, _⟩ => ⟨S64x64, .f32⟩
  | .hbm, ⟨49, _⟩ => ⟨S64x64, .bf16⟩
  | .hbm, ⟨50, _⟩ => ⟨S64x64, .f32⟩
  | .hbm, ⟨51, _⟩ => ⟨S64x64, .f32⟩
  | .hbm, ⟨52, _⟩ => ⟨S64x64, .bf16⟩
  | .hbm, ⟨53, _⟩ => ⟨S1x64, .f32⟩
  | .hbm, ⟨54, _⟩ => ⟨S100000x64, .f32⟩
  | .local _ .vmem, ⟨0, _⟩ => ⟨S16000x64, .bf16⟩
  | .local _ .vmem, ⟨1, _⟩ => ⟨S16000x64, .bf16⟩
  | .local _ .vmem, ⟨2, _⟩ => ⟨S16000x32, .f32⟩
  | .local _ .vmem, ⟨3, _⟩ => ⟨S16000x32, .f32⟩
  | .local _ .vmem, ⟨4, _⟩ => ⟨S64x64, .bf16⟩
  | .local _ .vmem, ⟨5, _⟩ => ⟨S32x64, .bf16⟩
  | .local _ .vmem, ⟨6, _⟩ => ⟨S1x64, .f32⟩
  | .local _ .vmem, ⟨7, _⟩ => ⟨S16000x64, .f32⟩
  | .local _ .vmem, ⟨8, _⟩ => ⟨S16000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .bf16⟩
  | .local _ .vmem, ⟨14, _⟩ => ⟨S64x64, .bf16⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bitsLt_bf16_f32 : FTy.bits .bf16 < FTy.bits .f32
  slices_S64x96_S64x64_0_0 : S64x96.Slices ![0, 0] S64x64
  transposes_S64x64_S64x64_1_0 : S64x64.Transposes [1, 0] S64x64
  slices_S64x96_S64x32_0_64 : S64x96.Slices ![0, 64] S64x32
  transposes_S64x32_S32x64_1_0 : S64x32.Transposes [1, 0] S32x64
  shapeCasts_S64_S1x64 : S64.ShapeCasts S1x64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S16000x32_S16000x32_0_0 : ∀ a, (![0, 0] : Fin 2 → Nat) a + S16000x32.size a ≤ S16000x32.size a
  h_S16000x32 : 0 < S16000x32.numel
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  bcast_S_S100000x64 : S_.BroadcastsInDim S100000x64 (![] : Fin 0 → Fin S100000x64.rank)
  slices_S64x128_S64x64_0_0 : S64x128.Slices ![0, 0] S64x64
  slices_S64x128_S64x64_0_64 : S64x128.Slices ![0, 64] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  dot_S16000x64_S64x64_S16000x64_1_0_0_1_n_n_wf : DotDims.WF S16000x64 S64x64 S16000x64 [1] [0] [0] [1] [] []
  dot_S16000x32_S32x64_S16000x64_1_0_0_1_n_n_wf : DotDims.WF S16000x32 S32x64 S16000x64 [1] [0] [0] [1] [] []
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S1600000x64.size a
  hwx0_0 : ∀ i : grid0.Coords, EltTy.bits .bf16 = 32 ∨ (Rect.block (s := S1600000x64) S16000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x32.size a ≤ S1600000x32.size a
  hwx0_1 : ∀ i : grid0.Coords, EltTy.bits .f32 = 32 ∨ (Rect.block (s := S1600000x32) S16000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .bf16 = 32 ∨ (Rect.block (s := S32x64) S32x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x64.size a ≤ S1600000x64.size a
  hwx0_5 : ∀ i : grid0.Coords, EltTy.bits .f32 = 32 ∨ (Rect.block (s := S1600000x64) S16000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def dot_S16000x32_S32x64_S16000x64_1_0_0_1_n_n : DotDims S16000x32 S32x64 S16000x64 where
  lhsContracting := [1]
  rhsContracting := [0]
  lhsNonContracting := [0]
  rhsNonContracting := [1]
  lhsBatch := []
  rhsBatch := []
  wf := dot_S16000x32_S32x64_S16000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v5) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S16000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x32 : Shape := ⟨2, ![1600000, 32]⟩
abbrev S64x96 : Shape := ⟨2, ![64, 96]⟩
abbrev S64 : Shape := ⟨1, ![64]⟩
abbrev S64x128 : Shape := ⟨2, ![64, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x96 : Shape := ⟨2, ![1600000, 96]⟩
abbrev S96x64 : Shape := ⟨2, ![96, 64]⟩
abbrev S1x64 : Shape := ⟨2, ![1, 64]⟩
abbrev S100000x128 : Shape := ⟨2, ![100000, 128]⟩
abbrev S128x64 : Shape := ⟨2, ![128, 64]⟩

abbrev nBuf : Space → Nat
  | .hbm => 44
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S64x96, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S1600000x96, .f32⟩
  | .hbm, ⟨21, _⟩ => ⟨S96x64, .f32⟩
  | .hbm, ⟨22, _⟩ => ⟨S1600000x64, .f32⟩
  | .hbm, ⟨23, _⟩ => ⟨S_, .f32⟩
  | .hbm, ⟨24, _⟩ => ⟨S1600000x64, .f32⟩
  | .hbm, ⟨25, _⟩ => ⟨S1600000x64, .i1⟩
  | .hbm, ⟨26, _⟩ => ⟨S1x64, .f32⟩
  | .hbm, ⟨27, _⟩ => ⟨S1600000x64, .f32⟩
  | .hbm, ⟨28, _⟩ => ⟨S1600000x64, .f32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S100000x128, .f32⟩
  | .hbm, ⟨35, _⟩ => ⟨S128x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .i1⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x32_S1600000x96_d1 : Shape.Concatenates [S1600000x64, S1600000x32] S1600000x96 1
  transposes_S64x96_S96x64_1_0 : S64x96.Transposes [1, 0] S96x64
  bcast_S_S1600000x64 : S_.BroadcastsInDim S1600000x64 (![] : Fin 0 → Fin S1600000x64.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  transposes_S64x128_S128x64_1_0 : S64x128.Transposes [1, 0] S128x64
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S1600000x96_S96x64_S1600000x64_1_0_0_1_n_n_wf : DotDims.WF S1600000x96 S96x64 S1600000x64 [1] [0] [0] [1] [] []
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x96_S96x64_S1600000x64_1_0_0_1_n_n : DotDims S1600000x96 S96x64 S1600000x64 where
  lhsContracting := [1]
  rhsContracting := [0]
  lhsNonContracting := [0]
  rhsNonContracting := [1]
  lhsBatch := []
  rhsBatch := []
  wf := dot_S1600000x96_S96x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

/-- Per-channel PReLU on the extended reals, as both programs compute it: `h` where `h ≥ 0`, else `α · h`. -/
def prelu (h α : EReal) : EReal :=
  Scalar.select (FloatOps.cmpf (F := Ideal) (φ := .f32) .oge h (FloatOps.ofBits (F := Ideal) .f32 0x00000000#32)) h (α * h)

/-- A linear layer over a row that is the join of two parts, followed by PReLU: entry `(r, q)` is
    `prelu (∑ₖ a[r,k] · wa[k,q] + ∑ₖ b[r,k] · wb[k,q]) α[0,q]`. -/
def splitLin {R K1 K2 : Nat} (a : (⟨2, ![R, K1]⟩ : Shape).Idx → EReal) (b : (⟨2, ![R, K2]⟩ : Shape).Idx → EReal)
    (wa : (⟨2, ![K1, 64]⟩ : Shape).Idx → EReal) (wb : (⟨2, ![K2, 64]⟩ : Shape).Idx → EReal)
    (α : (⟨2, ![1, 64]⟩ : Shape).Idx → EReal) : (⟨2, ![R, 64]⟩ : Shape).Idx → EReal :=
  fun i => prelu ((∑ k : Fin K1, a (ix2 (i 0) k) * wa (ix2 k (i 1))) + ∑ k : Fin K2, b (ix2 (i 0) k) * wb (ix2 k (i 1)))
    (α (ix2 0 (i 1)))

/-- `K'` rows of the transpose of a weight matrix `W : [64, K]`, from row `off`: entry `(k, q)` is `W[q, off + k]`. -/
def wT {K : Nat} (off K' : Nat) (W : (⟨2, ![64, K]⟩ : Shape).Idx → EReal) (h : off + K' ≤ K := by decide) :
    (⟨2, ![K', 64]⟩ : Shape).Idx → EReal :=
  fun i => W (ix2 (i 1) ⟨off + (i 0).val, by have := idx2_lt0 i; omega⟩)

/-- The per-channel slopes `α : [64]` as the one-row array `[1, 64]` both programs broadcast. -/
def αRow (α : (⟨1, ![64]⟩ : Shape).Idx → EReal) : (⟨2, ![1, 64]⟩ : Shape).Idx → EReal :=
  fun i => α (ix1 (i 1))

end Cert.Spec

end
-- ==== Proof.EdgeArray.lean ====
import proofs.«402400_j85650237817502_4_alg».proof.Proof.Gen.KernelIdeal.Frame
import proofs.«402400_j85650237817502_4_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Edge

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The two contractions of the edge kernel, entry by entry

Both matrix products contract the left operand's axis 1 with the right operand's axis 0, into a zero
accumulator: entry `(p, q)` is `∑ₖ a[p, k] · w[k, q]`. -/

/-- Left operand of the gathered-rows product: its row coordinate is the output's row. -/
theorem lhs_gat_0 (i : S16000x64.Idx) (q : dot_S16000x64_S64x64_S16000x64_1_0_0_1_n_n.contr.Idx) :
    (dot_S16000x64_S64x64_S16000x64_1_0_0_1_n_n.lhsIdx i q 0).val = (i 0).val := by
  unfold DotDims.lhsIdx
  rw [dif_neg (show ¬(0 : Fin S16000x64.rank) ∈ dot_S16000x64_S64x64_S16000x64_1_0_0_1_n_n.lhsBatch by decide), dif_pos (show (0 : Fin S16000x64.rank) ∈ dot_S16000x64_S64x64_S16000x64_1_0_0_1_n_n.lhsNonContracting by decide)]
  rfl
/-- Its column coordinate is the contraction coordinate. -/
theorem lhs_gat_1 (i : S16000x64.Idx) (q : dot_S16000x64_S64x64_S16000x64_1_0_0_1_n_n.contr.Idx) :
    (dot_S16000x64_S64x64_S16000x64_1_0_0_1_n_n.lhsIdx i q 1).val = (q ⟨0, by decide⟩).val :=
  dot_S16000x64_S64x64_S16000x64_1_0_0_1_n_n.lhsIdx_val_of_single rfl i q
/-- Right operand: its row coordinate is the contraction coordinate. -/
theorem rhs_gat_0 (i : S16000x64.Idx) (q : dot_S16000x64_S64x64_S16000x64_1_0_0_1_n_n.contr.Idx) :
    (dot_S16000x64_S64x64_S16000x64_1_0_0_1_n_n.rhsIdx i q 0).val = (q ⟨0, by decide⟩).val :=
  dot_S16000x64_S64x64_S16000x64_1_0_0_1_n_n.rhsIdx_val_of_single rfl i q
/-- Its column coordinate is the output's column. -/
theorem rhs_gat_1 (i : S16000x64.Idx) (q : dot_S16000x64_S64x64_S16000x64_1_0_0_1_n_n.contr.Idx) :
    (dot_S16000x64_S64x64_S16000x64_1_0_0_1_n_n.rhsIdx i q 1).val = (i 1).val := by
  unfold DotDims.rhsIdx
  rw [dif_neg (show ¬(1 : Fin S64x64.rank) ∈ dot_S16000x64_S64x64_S16000x64_1_0_0_1_n_n.rhsBatch by decide), dif_pos (show (1 : Fin S64x64.rank) ∈ dot_S16000x64_S64x64_S16000x64_1_0_0_1_n_n.rhsNonContracting by decide)]
  rfl

/-- The gathered-rows product `[16000, 64] · [64, 64]` at `(p, q)`. -/
theorem mm_gat_apply (a : FVec Ideal S16000x64 .bf16) (w : FVec Ideal S64x64 .bf16) (p : Fin 16000) (q : Fin 64) :
    matmul dot_S16000x64_S64x64_S16000x64_1_0_0_1_n_n none a w (constant (F := Ideal) S16000x64 .f32 0x00000000#32) (ix2 p q)
      = ∑ k : Fin 64, a (ix2 p k) * w (ix2 k q) := by
  simp only [matmul]
  rw [Ideal.matmul_constant_zero_apply, ← Equiv.sum_comp (contrEquiv1 dot_S16000x64_S64x64_S16000x64_1_0_0_1_n_n 64 rfl rfl).symm]
  refine Finset.sum_congr rfl fun k _ => ?_
  have hk := contrEquiv1_symm_val dot_S16000x64_S64x64_S16000x64_1_0_0_1_n_n 64 rfl rfl k
  have el : dot_S16000x64_S64x64_S16000x64_1_0_0_1_n_n.lhsIdx (ix2 p q) ((contrEquiv1 dot_S16000x64_S64x64_S16000x64_1_0_0_1_n_n 64 rfl rfl).symm k) = ix2 p k := funext fun ax => Fin.ext (by
    match ax with
    | ⟨0, _⟩ => exact lhs_gat_0 _ _
    | ⟨1, _⟩ => exact (lhs_gat_1 _ _).trans hk)
  have er : dot_S16000x64_S64x64_S16000x64_1_0_0_1_n_n.rhsIdx (ix2 p q) ((contrEquiv1 dot_S16000x64_S64x64_S16000x64_1_0_0_1_n_n 64 rfl rfl).symm k) = ix2 k q := funext fun ax => Fin.ext (by
    match ax with
    | ⟨0, _⟩ => exact (rhs_gat_0 _ _).trans hk
    | ⟨1, _⟩ => exact rhs_gat_1 _ _)
  rw [el, er]

/-- Left operand of the edge-feature product: its row coordinate is the output's row. -/
theorem lhs_efe_0 (i : S16000x64.Idx) (q : dot_S16000x32_S32x64_S16000x64_1_0_0_1_n_n.contr.Idx) :
    (dot_S16000x32_S32x64_S16000x64_1_0_0_1_n_n.lhsIdx i q 0).val = (i 0).val := by
  unfold DotDims.lhsIdx
  rw [dif_neg (show ¬(0 : Fin S16000x32.rank) ∈ dot_S16000x32_S32x64_S16000x64_1_0_0_1_n_n.lhsBatch by decide), dif_pos (show (0 : Fin S16000x32.rank) ∈ dot_S16000x32_S32x64_S16000x64_1_0_0_1_n_n.lhsNonContracting by decide)]
  rfl
/-- Its column coordinate is the contraction coordinate. -/
theorem lhs_efe_1 (i : S16000x64.Idx) (q : dot_S16000x32_S32x64_S16000x64_1_0_0_1_n_n.contr.Idx) :
    (dot_S16000x32_S32x64_S16000x64_1_0_0_1_n_n.lhsIdx i q 1).val = (q ⟨0, by decide⟩).val :=
  dot_S16000x32_S32x64_S16000x64_1_0_0_1_n_n.lhsIdx_val_of_single rfl i q
/-- Right operand: its row coordinate is the contraction coordinate. -/
theorem rhs_efe_0 (i : S16000x64.Idx) (q : dot_S16000x32_S32x64_S16000x64_1_0_0_1_n_n.contr.Idx) :
    (dot_S16000x32_S32x64_S16000x64_1_0_0_1_n_n.rhsIdx i q 0).val = (q ⟨0, by decide⟩).val :=
  dot_S16000x32_S32x64_S16000x64_1_0_0_1_n_n.rhsIdx_val_of_single rfl i q
/-- Its column coordinate is the output's column. -/
theorem rhs_efe_1 (i : S16000x64.Idx) (q : dot_S16000x32_S32x64_S16000x64_1_0_0_1_n_n.contr.Idx) :
    (dot_S16000x32_S32x64_S16000x64_1_0_0_1_n_n.rhsIdx i q 1).val = (i 1).val := by
  unfold DotDims.rhsIdx
  rw [dif_neg (show ¬(1 : Fin S32x64.rank) ∈ dot_S16000x32_S32x64_S16000x64_1_0_0_1_n_n.rhsBatch by decide), dif_pos (show (1 : Fin S32x64.rank) ∈ dot_S16000x32_S32x64_S16000x64_1_0_0_1_n_n.rhsNonContracting by decide)]
  rfl

/-- The edge-feature product `[16000, 32] · [32, 64]` at `(p, q)`. -/
theorem mm_efe_apply (a : FVec Ideal S16000x32 .bf16) (w : FVec Ideal S32x64 .bf16) (p : Fin 16000) (q : Fin 64) :
    matmul dot_S16000x32_S32x64_S16000x64_1_0_0_1_n_n none a w (constant (F := Ideal) S16000x64 .f32 0x00000000#32) (ix2 p q)
      = ∑ k : Fin 32, a (ix2 p k) * w (ix2 k q) := by
  simp only [matmul]
  rw [Ideal.matmul_constant_zero_apply, ← Equiv.sum_comp (contrEquiv1 dot_S16000x32_S32x64_S16000x64_1_0_0_1_n_n 32 rfl rfl).symm]
  refine Finset.sum_congr rfl fun k _ => ?_
  have hk := contrEquiv1_symm_val dot_S16000x32_S32x64_S16000x64_1_0_0_1_n_n 32 rfl rfl k
  have el : dot_S16000x32_S32x64_S16000x64_1_0_0_1_n_n.lhsIdx (ix2 p q) ((contrEquiv1 dot_S16000x32_S32x64_S16000x64_1_0_0_1_n_n 32 rfl rfl).symm k) = ix2 p k := funext fun ax => Fin.ext (by
    match ax with
    | ⟨0, _⟩ => exact lhs_efe_0 _ _
    | ⟨1, _⟩ => exact (lhs_efe_1 _ _).trans hk)
  have er : dot_S16000x32_S32x64_S16000x64_1_0_0_1_n_n.rhsIdx (ix2 p q) ((contrEquiv1 dot_S16000x32_S32x64_S16000x64_1_0_0_1_n_n 32 rfl rfl).symm k) = ix2 k q := funext fun ax => Fin.ext (by
    match ax with
    | ⟨0, _⟩ => exact (rhs_efe_0 _ _).trans hk
    | ⟨1, _⟩ => exact rhs_efe_1 _ _)
  rw [el, er]

/-- The edge kernel's stored value, entry by entry. -/
theorem pay_eq (x0 : Vec Ideal S16000x64 .bf16) (x2 : Vec Ideal S64x64 .bf16) (x1 : Vec Ideal S16000x32 .f32)
    (x3 : Vec Ideal S32x64 .bf16) (x4 : Vec Ideal S1x64 .f32) :
    k0_pay1 (F := Ideal) x0 x2 x1 x3 x4 = Cert.Spec.splitLin x0 x1 x2 x3 x4 := by
  funext j
  obtain ⟨p, q, rfl⟩ : ∃ (p : Fin 16000) (q : Fin 64), j = ix2 p q := ⟨j 0, j 1, eq_ix2 j⟩
  unfold k0_pay1
  rw [shapeCast_self, shapeCast_self, shapeCast_self, shapeCast_self]
  rw [select_apply, cmpf_apply, mulf_apply, addf_apply, broadcast_apply, broadcastTo_1b_ab_apply,
    mm_gat_apply, mm_efe_apply]
  rfl

variable (V : (c : Dev nD) → (b : Ref sig .tc) → Buf (Elt Ideal) ((c : Thread nD τ).loc b))

/-- Region 0's five input arrays as the region finds them, at their literal types. -/
abbrev gat (c : Dev nD) : Vec Ideal S1600000x64 .bf16 := V c main_v5
abbrev efe (c : Dev nD) : Vec Ideal S1600000x32 .f32 := V c main_arg2
abbrev wna (c : Dev nD) : Vec Ideal S64x64 .bf16 := V c main_v8
abbrev wea (c : Dev nD) : Vec Ideal S32x64 .bf16 := V c main_v11
abbrev alp (c : Dev nD) : Vec Ideal S1x64 .f32 := V c main_v12

/-! ## From the blocks to the array

The grid has 100 points; at point `t` the gathered rows, the edge features and the output move together in
blocks of 16000 rows (block index `(t, 0)`), while the two weight matrices and the slope row are whole
(block index `(0, 0)`). So entry `(p, q)` of output block `t` is entry `(16000 t + p, q)` of the layer applied to
the whole arrays. -/

/-- The layer at an index given by its coordinates. -/
theorem splitLin_apply {R K1 K2 : Nat} (a : (⟨2, ![R, K1]⟩ : Shape).Idx → EReal) (b : (⟨2, ![R, K2]⟩ : Shape).Idx → EReal)
    (wa : (⟨2, ![K1, 64]⟩ : Shape).Idx → EReal) (wb : (⟨2, ![K2, 64]⟩ : Shape).Idx → EReal)
    (α : (⟨2, ![1, 64]⟩ : Shape).Idx → EReal) (p : Fin R) (q : Fin 64) :
    Cert.Spec.splitLin a b wa wb α (ix2 p q)
      = Cert.Spec.prelu ((∑ k : Fin K1, a (ix2 p k) * wa (ix2 k q)) + ∑ k : Fin K2, b (ix2 p k) * wb (ix2 k q)) (α (ix2 0 q)) := rfl

theorem zero_offsets : (![0, 0] : Fin 2 → Nat) = fun _ => 0 := funext fun a => by fin_cases a <;> rfl

/-- The block index of each window at each grid point: windows 0, 1 and 5 are at `(t, 0)`, windows 2, 3, 4 at `(0, 0)`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the gathered-rows block at point `t` is row `16000 t + p` of the array. -/
theorem blk_gat (c : Dev nD) (t : Fin cfg0.N) (p : Fin 16000) (k : Fin 64) (r : Fin 1600000)
    (hr : r.val = t.val * 16000 + p.val) :
    (iblk0 V c 0 t : Vec Ideal S16000x64 .bf16) (ix2 p k) = gat V c (ix2 r k) := by
  obtain ⟨e0, e1, -⟩ := block_index t
  unfold iblk0
  rw [View.read_apply]
  show V c main_v5 _ = V c main_v5 _
  congr 1
  funext a
  apply Fin.ext
  match a with
  | ⟨0, _⟩ => show win0_0.index t (0 : Fin 2) * 16000 + 1 * p.val = r.val; rw [e0, hr]; omega
  | ⟨1, _⟩ => show win0_0.index t (1 : Fin 2) * 64 + 1 * k.val = k.val; rw [e1]; omega

/-- Row `p` of the edge-feature block at point `t` is row `16000 t + p` of the array. -/
theorem blk_efe (c : Dev nD) (t : Fin cfg0.N) (p : Fin 16000) (k : Fin 32) (r : Fin 1600000)
    (hr : r.val = t.val * 16000 + p.val) :
    (iblk0 V c 1 t : Vec Ideal S16000x32 .f32) (ix2 p k) = efe V c (ix2 r k) := by
  obtain ⟨-, -, e0, e1, -⟩ := block_index t
  unfold iblk0
  rw [View.read_apply]
  show V c main_arg2 _ = V c main_arg2 _
  congr 1
  funext a
  apply Fin.ext
  match a with
  | ⟨0, _⟩ => show win0_1.index t (0 : Fin 2) * 16000 + 1 * p.val = r.val; rw [e0, hr]; omega
  | ⟨1, _⟩ => show win0_1.index t (1 : Fin 2) * 32 + 1 * k.val = k.val; rw [e1]; omega

/-- The first weight matrix's block is the matrix, at every point. -/
theorem blk_wna (c : Dev nD) (t : Fin cfg0.N) (k : Fin 64) (q : Fin 64) :
    (iblk0 V c 2 t : Vec Ideal S64x64 .bf16) (ix2 k q) = wna V c (ix2 k q) := by
  obtain ⟨-, -, -, -, e0, e1, -⟩ := block_index t
  unfold iblk0
  rw [View.read_apply]
  show V c main_v8 _ = V c main_v8 _
  congr 1
  funext a
  apply Fin.ext
  match a with
  | ⟨0, _⟩ => show win0_2.index t (0 : Fin 2) * 64 + 1 * k.val = k.val; rw [e0]; omega
  | ⟨1, _⟩ => show win0_2.index t (1 : Fin 2) * 64 + 1 * q.val = q.val; rw [e1]; omega

/-- The second weight matrix's block is the matrix, at every point. -/
theorem blk_wea (c : Dev nD) (t : Fin cfg0.N) (k : Fin 32) (q : Fin 64) :
    (iblk0 V c 3 t : Vec Ideal S32x64 .bf16) (ix2 k q) = wea V c (ix2 k q) := by
  obtain ⟨-, -, -, -, -, -, e0, e1, -⟩ := block_index t
  unfold iblk0
  rw [View.read_apply]
  show V c main_v11 _ = V c main_v11 _
  congr 1
  funext a
  apply Fin.ext
  match a with
  | ⟨0, _⟩ => show win0_3.index t (0 : Fin 2) * 32 + 1 * k.val = k.val; rw [e0]; omega
  | ⟨1, _⟩ => show win0_3.index t (1 : Fin 2) * 64 + 1 * q.val = q.val; rw [e1]; omega

/-- The slope row's block is the row, at every point. -/
theorem blk_alp (c : Dev nD) (t : Fin cfg0.N) (z : Fin 1) (q : Fin 64) :
    (iblk0 V c 4 t : Vec Ideal S1x64 .f32) (ix2 z q) = alp V c (ix2 z q) := by
  obtain ⟨-, -, -, -, -, -, -, -, e0, e1, -⟩ := block_index t
  unfold iblk0
  rw [View.read_apply]
  show V c main_v12 _ = V c main_v12 _
  congr 1
  funext a
  apply Fin.ext
  match a with
  | ⟨0, _⟩ => show win0_4.index t (0 : Fin 2) * 1 + 1 * z.val = z.val; rw [e0]; omega
  | ⟨1, _⟩ => show win0_4.index t (1 : Fin 2) * 64 + 1 * q.val = q.val; rw [e1]; omega

/-- Entry `(p, q)` of the layer applied to the blocks at point `t` is entry `(16000 t + p, q)` of the layer applied to
    the arrays: the two sums read row `16000 t + p` of the row arrays and column `q` of the weights. -/
theorem block_entry (c : Dev nD) (t : Fin cfg0.N) (p : Fin 16000) (q : Fin 64) (r : Fin 1600000)
    (hr : r.val = t.val * 16000 + p.val) :
    Cert.Spec.splitLin (iblk0 V c 0 t : Vec Ideal S16000x64 .bf16) (iblk0 V c 1 t : Vec Ideal S16000x32 .f32)
        (iblk0 V c 2 t : Vec Ideal S64x64 .bf16) (iblk0 V c 3 t : Vec Ideal S32x64 .bf16) (iblk0 V c 4 t : Vec Ideal S1x64 .f32) (ix2 p q)
      = Cert.Spec.splitLin (gat V c) (efe V c) (wna V c) (wea V c) (alp V c) (ix2 r q) := by
  rw [splitLin_apply, splitLin_apply]
  refine congrArg₂ Cert.Spec.prelu (congrArg₂ (· + ·) (Finset.sum_congr rfl fun k _ => ?_) (Finset.sum_congr rfl fun k _ => ?_)) ?_
  · rw [blk_gat V c t p k r hr, blk_wna V c t k q]
  · rw [blk_efe V c t p k r hr, blk_wea V c t k q]
  · exact blk_alp V c t 0 q

/-- What grid point `t` writes back is block `t` of the layer applied to the arrays. -/
theorem flushed_eq (c : Dev nD) (t : Fin cfg0.N) :
    (dat0 (F := Ideal) V c).flushed 5 t
      = ((cfg0.win 5).blk t).view.read (Elt Ideal) (Cert.Spec.splitLin (gat V c) (efe V c) (wna V c) (wea V c) (alp V c)) := by
  show (cfg0.win 5).cut (grid0.coords t) ((dat0 (F := Ideal) V c).after 5 t) = _
  rw [after0_5]
  unfold out0_5
  rw [View.canon_unit_zero zero_offsets]
  simp only [View.ld_unit_zero (S := S16000x64) zero_offsets, View.ld_unit_zero (S := S64x64) zero_offsets,
    View.ld_unit_zero (S := S16000x32) zero_offsets, View.ld_unit_zero (S := S32x64) zero_offsets,
    View.ld_unit_zero (S := S1x64) zero_offsets]
  rw [pay_eq]
  obtain ⟨-, -, -, -, -, -, -, -, -, -, e0, e1⟩ := block_index t
  have ht : t.val < 100 := lt_of_lt_of_eq t.isLt N_0
  funext j
  have hj0 : (j 0).val < 16000 := (j 0).isLt
  have hj1 : (j 1).val < 64 := (j 1).isLt
  rw [View.read_apply]
  refine Eq.trans ?_ ((block_entry V c t ⟨(j 0).val, hj0⟩ ⟨(j 1).val, hj1⟩ ⟨t.val * 16000 + (j 0).val, by omega⟩ rfl).trans ?_)
  · refine congrArg (Cert.Spec.splitLin _ _ _ _ _) (funext fun a => Fin.ext ?_)
    match a with
    | ⟨0, _⟩ => rfl
    | ⟨1, _⟩ => rfl
  · refine congrArg (Cert.Spec.splitLin _ _ _ _ _) (funext fun a => Fin.ext ?_)
    match a with
    | ⟨0, _⟩ => show t.val * 16000 + (j 0).val = win0_5.index t (0 : Fin 2) * 16000 + 1 * (j 0).val; rw [e0]; omega
    | ⟨1, _⟩ => show (j 1).val = win0_5.index t (1 : Fin 2) * 64 + 1 * (j 1).val; rw [e1]; omega

/-- An index of the output array is in point `t`'s block iff each coordinate is in the block's range on its axis. -/
theorem mem_blk (t : Fin cfg0.N) (i : S1600000x64.Idx) :
    i ∈ ((cfg0.win 5).blk t).view.set ↔ ∀ a : Fin 2, win0_5.index t a * S16000x64.size a ≤ (i a).val ∧ (i a).val < win0_5.index t a * S16000x64.size a + S16000x64.size a := by
  show i ∈ ((View.whole main_v13).slice (win0_5.rect t)).set ↔ _
  rw [View.set_slice_whole, Rect.mem_set_unit]
  exact Iff.rfl

/-- Row `i` of the output is covered by grid point `i / 16000`, which writes back. -/
theorem covered (i : S1600000x64.Idx) :
    ∃ t : Fin cfg0.N, (cfg0.win 5).flush t = true ∧ i ∈ ((cfg0.win 5).blk t).view.set := by
  have hi0 : (i 0).val < 1600000 := (i 0).isLt
  have hi1 : (i 1).val < 64 := (i 1).isLt
  have hN : cfg0.N = 100 := N_0
  let t : Fin cfg0.N := ⟨(i 0).val / 16000, by rw [hN]; omega⟩
  have htv : t.val = (i 0).val / 16000 := rfl
  obtain ⟨-, -, -, -, -, -, -, -, -, -, e0, e1⟩ := block_index t
  refine ⟨t, flush0_5 t, ?_⟩
  rw [mem_blk]
  intro a
  match a with
  | ⟨0, _⟩ => show win0_5.index t (0 : Fin 2) * 16000 ≤ (i 0).val ∧ (i 0).val < win0_5.index t (0 : Fin 2) * 16000 + 16000; rw [e0, htv]; omega
  | ⟨1, _⟩ => show win0_5.index t (1 : Fin 2) * 64 ≤ (i 1).val ∧ (i 1).val < win0_5.index t (1 : Fin 2) * 64 + 64; rw [e1]; omega

/-- Region 0's output array after its last grid point. -/
theorem arr_eq (c : Dev nD) :
    (dat0 (F := Ideal) V c).arrAt 5 cfg0.N = Cert.Spec.splitLin (gat V c) (efe V c) (wna V c) (wea V c) (alp V c) := by
  exact (dat0 (F := Ideal) V c).arrAt_eq_of_cover 5 (Cert.Spec.splitLin (gat V c) (efe V c) (wna V c) (wea V c) (alp V c))
    (fun t _ => flushed_eq V c t) covered

end Cert.KernelIdeal.Edge

end
-- ==== Proof.NodeArray.lean ====
import proofs.«402400_j85650237817502_4_alg».proof.Proof.Gen.KernelIdeal.Frame
import proofs.«402400_j85650237817502_4_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

open scoped BigOperators

namespace Cert.KernelIdeal.Node

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One matrix product of the node kernel, entry by entry

Both products of the node kernel contract axis 1 of a `[10000, 64]` block against axis 0 of a `[64, 64]` matrix. The
left operand's index at output `(p, q)` and contraction coordinate `k` is `(p, k)`, the right operand's is `(k, q)`. -/

/-- The left operand's row is the output's row. -/
theorem lhs_rows (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The left operand's column is the contraction coordinate. -/
theorem lhs_cols (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's row is the contraction coordinate. -/
theorem rhs_rows (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- The right operand's column is the output's column. -/
theorem rhs_cols (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A product into the zero accumulator, at `(p, q)`: the sum over `k` of `a[p, k] · w[k, q]`. -/
theorem prod_apply (a : FVec Ideal S10000x64 .bf16) (w : FVec Ideal S64x64 .bf16) (p : Fin 10000) (q : Fin 64) :
    matmul dot_S10000x64_S64x64_S10000x64_1_0_0_1_n_n none a w (constant (F := Ideal) S10000x64 .f32 0x00000000#32) (ix2 p q)
      = ∑ k : Fin 64, a (ix2 p k) * w (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_rows _ _
    | ⟨1, _⟩ => exact (lhs_cols _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_rows _ _).trans hk
    | ⟨1, _⟩ => exact rhs_cols _ _)
  rw [el, er]

/-- The node kernel's stored value, entry by entry. -/
theorem pay_eq (x0 : Vec Ideal S10000x64 .f32) (x2 : Vec Ideal S64x64 .bf16) (x1 : Vec Ideal S10000x64 .f32)
    (x3 : Vec Ideal S64x64 .bf16) (x4 : Vec Ideal S1x64 .f32) :
    k1_pay1 (F := Ideal) x0 x2 x1 x3 x4 = Cert.Spec.splitLin x0 x1 x2 x3 x4 := by
  funext j
  obtain ⟨p, q, rfl⟩ : ∃ (p : Fin 10000) (q : Fin 64), j = ix2 p q := ⟨j 0, j 1, eq_ix2 j⟩
  show k1_pay1 (F := Ideal) x0 x2 x1 x3 x4 (ix2 p q)
    = Cert.Spec.prelu ((∑ k : Fin 64, x0 (ix2 p k) * x2 (ix2 k q)) + ∑ k : Fin 64, x1 (ix2 p k) * x3 (ix2 k q)) (x4 (ix2 (0 : Fin 1) q))
  unfold k1_pay1 Cert.Spec.prelu
  simp only [shapeCast_self]
  rw [select_apply, cmpf_apply, mulf_apply, addf_apply, broadcast_apply, broadcastTo_1b_ab_apply, prod_apply, prod_apply]
  rfl

variable (V : (c : Dev nD) → (b : Ref sig .tc) → Buf (Elt Ideal) ((c : Thread nD τ).loc b))

/-- Region 1's five input arrays as the region finds them, at their literal types. -/
abbrev upd (c : Dev nD) : Vec Ideal S100000x64 .f32 := V c main_v16
abbrev nfe (c : Dev nD) : Vec Ideal S100000x64 .f32 := V c main_arg0
abbrev wua (c : Dev nD) : Vec Ideal S64x64 .bf16 := V c main_v19
abbrev wfa (c : Dev nD) : Vec Ideal S64x64 .bf16 := V c main_v22
abbrev alp (c : Dev nD) : Vec Ideal S1x64 .f32 := V c main_v23

/-! ## From the blocks to the array

The node kernel runs at 10 grid points. At point `t` the two row operands and the output are at row block `t`
(rows `10000·t … 10000·t + 9999`), and the two weight matrices and the slope row are whole. So entry `(r, q)` of the
block point `t` writes back reads row `10000·t + r` of the two row arrays and column `q` of the three small ones: it
is entry `(10000·t + r, q)` of `splitLin` of the arrays. The ten row blocks cover the output. -/

theorem zero_offsets : (![0, 0] : Fin 2 → Nat) = fun _ => 0 := funext fun a => by fin_cases a <;> rfl

/-- The block index of each window at grid point `t`: row block `t` for the row operands and the output, block
    `(0, 0)` for the whole arrays; there are 10 points. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ t.val < 10 :=
  (by decide +kernel : ∀ t : Fin grid1.N, _)

/-- Every row block of the output is some point's. -/
theorem block_onto : ∀ b : Fin 10, ∃ t : Fin cfg1.N, win1_5.index t (0 : Fin 2) = b.val ∧ win1_5.index t (1 : Fin 2) = 0 :=
  (by decide +kernel : ∀ b : Fin 10, ∃ t : Fin grid1.N, win1_5.index t (0 : Fin 2) = b.val ∧ win1_5.index t (1 : Fin 2) = 0)

/-- Window 0's block at point `t`, entry `y`, is the array at row `10000·t + y₀`, column `y₁`. -/
theorem read_rows0 (A : Vec Ideal S100000x64 .f32) (t : Fin cfg1.N) (y : S10000x64.Idx) (i : S100000x64.Idx)
    (h0 : (i 0).val = t.val * 10000 + (y 0).val) (h1 : (i 1).val = (y 1).val) :
    ((cfg1.win 0).blk t).view.read (Elt Ideal) A y = A i := by
  obtain ⟨e0, e1, -⟩ := block_indices t
  rw [View.read_apply]
  show A _ = A i
  refine congrArg A (funext fun a => Fin.ext ?_)
  match a with
  | ⟨0, _⟩ => show win1_0.index t (0 : Fin 2) * 10000 + 1 * (y 0).val = (i 0).val; omega
  | ⟨1, _⟩ => show win1_0.index t (1 : Fin 2) * 64 + 1 * (y 1).val = (i 1).val; omega

/-- Window 1's block at point `t`, entry `y`, is the array at row `10000·t + y₀`, column `y₁`. -/
theorem read_rows1 (A : Vec Ideal S100000x64 .f32) (t : Fin cfg1.N) (y : S10000x64.Idx) (i : S100000x64.Idx)
    (h0 : (i 0).val = t.val * 10000 + (y 0).val) (h1 : (i 1).val = (y 1).val) :
    ((cfg1.win 1).blk t).view.read (Elt Ideal) A y = A i := by
  obtain ⟨-, -, e0, e1, -⟩ := block_indices t
  rw [View.read_apply]
  show A _ = A i
  refine congrArg A (funext fun a => Fin.ext ?_)
  match a with
  | ⟨0, _⟩ => show win1_1.index t (0 : Fin 2) * 10000 + 1 * (y 0).val = (i 0).val; omega
  | ⟨1, _⟩ => show win1_1.index t (1 : Fin 2) * 64 + 1 * (y 1).val = (i 1).val; omega

/-- Window 2's block at any point is its whole array. -/
theorem read_whole2 (A : Vec Ideal S64x64 .bf16) (t : Fin cfg1.N) (y : S64x64.Idx) :
    ((cfg1.win 2).blk t).view.read (Elt Ideal) A y = A y := by
  obtain ⟨-, -, -, -, e0, e1, -⟩ := block_indices t
  rw [View.read_apply]
  show A _ = A y
  refine congrArg A (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- Window 3's block at any point is its whole array. -/
theorem read_whole3 (A : Vec Ideal S64x64 .bf16) (t : Fin cfg1.N) (y : S64x64.Idx) :
    ((cfg1.win 3).blk t).view.read (Elt Ideal) A y = A y := by
  obtain ⟨-, -, -, -, -, -, e0, e1, -⟩ := block_indices t
  rw [View.read_apply]
  show A _ = A y
  refine congrArg A (funext fun a => Fin.ext ?_)
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- Window 4's block at any point is its whole array. -/
theorem read_whole4 (A : Vec Ideal S1x64 .f32) (t : Fin cfg1.N) (y : S1x64.Idx) :
    ((cfg1.win 4).blk t).view.read (Elt Ideal) A y = A y := by
  obtain ⟨-, -, -, -, -, -, -, -, e0, e1, -⟩ := block_indices t
  rw [View.read_apply]
  show A _ = A y
  refine congrArg A (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- The output window's block at point `t`, entry `y`, is the array at row `10000·t + y₀`, column `y₁`. -/
theorem read_rows5 (A : Vec Ideal S100000x64 .f32) (t : Fin cfg1.N) (y : S10000x64.Idx) (i : S100000x64.Idx)
    (h0 : (i 0).val = t.val * 10000 + (y 0).val) (h1 : (i 1).val = (y 1).val) :
    ((cfg1.win 5).blk t).view.read (Elt Ideal) A y = A i := by
  obtain ⟨-, -, -, -, -, -, -, -, -, -, e0, e1, -⟩ := block_indices t
  rw [View.read_apply]
  show A _ = A i
  refine congrArg A (funext fun a => Fin.ext ?_)
  match a with
  | ⟨0, _⟩ => show win1_5.index t (0 : Fin 2) * 10000 + 1 * (y 0).val = (i 0).val; omega
  | ⟨1, _⟩ => show win1_5.index t (1 : Fin 2) * 64 + 1 * (y 1).val = (i 1).val; omega

/-- `splitLin` at `(r, q)` depends on row `r` of the two row operands, column `q` of the two weight matrices and
    entry `q` of the slope row only: operands that agree there with row `R` (resp. column `q`) of others give the same entry. -/
theorem block_entry (a b : (⟨2, ![10000, 64]⟩ : Shape).Idx → EReal) (A B : (⟨2, ![100000, 64]⟩ : Shape).Idx → EReal)
    (wa wa' wb wb' : (⟨2, ![64, 64]⟩ : Shape).Idx → EReal) (α α' : (⟨2, ![1, 64]⟩ : Shape).Idx → EReal)
    (r : Fin 10000) (R : Fin 100000) (q : Fin 64)
    (ha : ∀ k : Fin 64, a (ix2 r k) = A (ix2 R k)) (hb : ∀ k : Fin 64, b (ix2 r k) = B (ix2 R k))
    (hwa : ∀ k : Fin 64, wa (ix2 k q) = wa' (ix2 k q)) (hwb : ∀ k : Fin 64, wb (ix2 k q) = wb' (ix2 k q))
    (hα : α (ix2 (0 : Fin 1) q) = α' (ix2 (0 : Fin 1) q)) :
    Cert.Spec.splitLin a b wa wb α (ix2 r q) = Cert.Spec.splitLin A B wa' wb' α' (ix2 R q) := by
  show Cert.Spec.prelu ((∑ k : Fin 64, a (ix2 r k) * wa (ix2 k q)) + ∑ k : Fin 64, b (ix2 r k) * wb (ix2 k q)) (α (ix2 (0 : Fin 1) q))
    = Cert.Spec.prelu ((∑ k : Fin 64, A (ix2 R k) * wa' (ix2 k q)) + ∑ k : Fin 64, B (ix2 R k) * wb' (ix2 k q)) (α' (ix2 (0 : Fin 1) q))
  have ea : (∑ k : Fin 64, a (ix2 r k) * wa (ix2 k q)) = ∑ k : Fin 64, A (ix2 R k) * wa' (ix2 k q) :=
    Finset.sum_congr rfl fun k _ => by rw [ha k, hwa k]
  have eb : (∑ k : Fin 64, b (ix2 r k) * wb (ix2 k q)) = ∑ k : Fin 64, B (ix2 R k) * wb' (ix2 k q) :=
    Finset.sum_congr rfl fun k _ => by rw [hb k, hwb k]
  rw [ea, eb, hα]

/-- What point `t` writes back is block `t` of `splitLin` of the five arrays as the region finds them. -/
theorem flushed_eq (c : Dev nD) (t : Fin cfg1.N) :
    (dat1 (F := Ideal) V c).flushed 5 t
      = ((cfg1.win 5).blk t).view.read (Elt Ideal) (Cert.Spec.splitLin (upd V c) (nfe V c) (wua V c) (wfa V c) (alp V c)) := by
  show (cfg1.win 5).cut (grid1.coords t) ((dat1 (F := Ideal) V c).after 5 t) = _
  rw [after1_5]
  unfold out1_5
  rw [View.canon_unit_zero zero_offsets]
  simp only [View.ld_unit_zero (S := S10000x64) zero_offsets, View.ld_unit_zero (S := S64x64) zero_offsets, View.ld_unit_zero (S := S1x64) zero_offsets]
  rw [pay_eq]
  have ht : t.val < 10 := (block_indices t).2.2.2.2.2.2.2.2.2.2.2.2
  refine funext fun (j : S10000x64.Idx) => ?_
  obtain ⟨r, q, rfl⟩ : ∃ (r : Fin 10000) (q : Fin 64), j = ix2 r q := ⟨j 0, j 1, eq_ix2 j⟩
  have hR : t.val * 10000 + r.val < 100000 := by have := r.isLt; omega
  refine Eq.trans ?_ (read_rows5 (Cert.Spec.splitLin (upd V c) (nfe V c) (wua V c) (wfa V c) (alp V c)) t (ix2 r q)
    (ix2 (⟨t.val * 10000 + r.val, hR⟩ : Fin 100000) q) rfl rfl).symm
  exact block_entry (iblk1 V c 0 t) (iblk1 V c 1 t) (upd V c) (nfe V c) (iblk1 V c 2 t) (wua V c) (iblk1 V c 3 t) (wfa V c)
    (iblk1 V c 4 t) (alp V c) r (⟨t.val * 10000 + r.val, hR⟩ : Fin 100000) q
    (fun k => read_rows0 (upd V c) t (ix2 r k) (ix2 (⟨t.val * 10000 + r.val, hR⟩ : Fin 100000) k) rfl rfl)
    (fun k => read_rows1 (nfe V c) t (ix2 r k) (ix2 (⟨t.val * 10000 + r.val, hR⟩ : Fin 100000) k) rfl rfl)
    (fun k => read_whole2 (wua V c) t (ix2 k q))
    (fun k => read_whole3 (wfa V c) t (ix2 k q))
    (read_whole4 (alp V c) t (ix2 (0 : Fin 1) q))

/-- An index of the output array is in point `t`'s block iff each coordinate is in the block's range on its axis. -/
theorem mem_rows (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v24).slice (win1_5.rect t)).set ↔ _
  rw [View.set_slice_whole, Rect.mem_set_unit]
  exact Iff.rfl

/-- Row `i₀` of the output is in the block of the point at row block `i₀ / 10000`. -/
theorem rows_covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht0, ht1⟩ := block_onto ⟨(i 0).val / 10000, by omega⟩
  have q0 : win1_5.index t (0 : Fin 2) = (i 0).val / 10000 := ht0
  refine ⟨t, flush1_5 t, ?_⟩
  rw [mem_rows]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- Region 1's output array after its last grid point. -/
theorem arr_eq (c : Dev nD) :
    (dat1 (F := Ideal) V c).arrAt 5 cfg1.N = Cert.Spec.splitLin (upd V c) (nfe V c) (wua V c) (wfa V c) (alp V c) :=
  (dat1 (F := Ideal) V c).arrAt_eq_of_cover 5 (Cert.Spec.splitLin (upd V c) (nfe V c) (wua V c) (wfa V c) (alp V c))
    (fun t _ => flushed_eq V c t) rows_covered

end Cert.KernelIdeal.Node

end
-- ==== Proof.HostDefs.lean ====
import proofs.«402400_j85650237817502_4_alg».proof.Proof.Gen.KernelIdeal.Frame

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-! ## The host values between the launch and the two kernels, named -/

/-- Row 0 of `edge_index`: the receiving node of each edge. -/
def receivers (x1 : IVec S2x1600000 32) : IVec S1600000 32 :=
  shapeCast S1600000 (extractStridedSlice S1x1600000 ![0, 0] x1 slices_S2x1600000_S1x1600000_0_0) shapeCasts_S1x1600000_S1600000

/-- Row 1 of `edge_index`: the sending node of each edge. -/
def senders (x1 : IVec S2x1600000 32) : IVec S1600000 32 :=
  shapeCast S1600000 (extractStridedSlice S1x1600000 ![1, 0] x1 slices_S2x1600000_S1x1600000_1_0) shapeCasts_S1x1600000_S1600000

/-- The start indices of the gather: a negative sender is counted from the end (`s + 100000`), as a column. -/
def startIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Which gathered rows the fill mode keeps: the start index within `[0, 99999]`, spread over the row. -/
def inRange (idx : IVec S1600000x1 32) : IVec S1600000x64 1 :=
  broadcastInDim S1600000x64 ![0] bcast_S1600000_S1600000x64_0
    (Host.reduce IntOp.andi
      (andi (cmpi .sge idx (broadcastInDim S1600000x1 ![] bcast_S_S1600000x1 (constantI S_ 32 0#32)))
        (cmpi .sle idx (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_)

/-- The gathered sender rows in fill mode: the table's row where the start index is in range, the fill word elsewhere. -/
def taken (x0 : FVec F S100000x64 .f32) (s : IVec S1600000 32) : FVec F S1600000x64 .f32 :=
  select (inRange (startIdx s))
    (Host.gather gather_S100000x64_S1600000x1_S1600000x64_1_0_n_n_0_1_164 x0 (startIdx s))
    (broadcastInDim S1600000x64 ![] bcast_S_S1600000x64 (constant S_ .f32 0x7FC00000#32))

end Cert.KernelIdeal.HostSide

end
-- ==== Proof.TakeStretch.lean ====
import proofs.«402400_j85650237817502_4_alg».proof.Proof.Gen.KernelIdeal.Frame
import proofs.«402400_j85650237817502_4_alg».proof.Proof.HostDefs
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-- Contents moved to a typed reference's buffer and back are unchanged. -/
theorem ofBuf_toBuf {T : BufTy} (x : TRef sig T) (v : T.Contents (Elt F)) : x.ofBuf (x.toBuf v) = v := by
  obtain ⟨r, h, h2, h3⟩ := x
  subst h
  rfl

/-- At a literal reference the carried type is the buffer's own, and moving contents to it or from it changes nothing. -/
theorem toBuf_v4 (x : FVec F S1600000x64 .f32) :
    ((TRef.of (T := ⟨S1600000x64, .f32⟩) main_v4).toBuf (Val := Elt F) x : FVec F S1600000x64 .f32) = x := rfl
theorem ofBuf_v3 (x : IVec S1600000 32) :
    ((TRef.of (T := ⟨S1600000, .i32⟩) main_v3).ofBuf (Val := Elt F) x : IVec S1600000 32) = x := rfl
theorem ofBuf_arg0 (x : FVec F S100000x64 .f32) :
    ((TRef.of (T := ⟨S100000x64, .f32⟩) main_arg0).ofBuf (Val := Elt F) x : FVec F S100000x64 .f32) = x := rfl

set_option maxHeartbeats 400000 in
/-- The gather's own stretch of host operations (the inlined `take`), from any contents: it leaves in `main_v4`
    the fill-mode gather of the table `main_arg0` at the senders `main_v3`. -/
theorem stretch1_taken (V : Valuation τ sig (Elt F)) :
    after (hostOps0_1 (F := F)) V (Proc.devRef .tc main_v4)
      = taken (V (Proc.devRef .tc main_arg0)) (V (Proc.devRef .tc main_v3)) := by
  after_results_simp
  simp only [ofBuf_toBuf]
  refine (toBuf_v4 _).trans ?_
  rw [ofBuf_v3 (F := F) (V (Proc.devRef .tc main_v3)), ofBuf_arg0 (V (Proc.devRef .tc main_arg0))]
  rfl

end Cert.KernelIdeal.HostSide

end
-- ==== Proof.HostEntry0.lean ====
import proofs.«402400_j85650237817502_4_alg».proof.Proof.Gen.KernelIdeal.Frame
import proofs.«402400_j85650237817502_4_alg».proof.Proof.HostDefs
import proofs.«402400_j85650237817502_4_alg».proof.Proof.TakeStretch
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Each host stretch from any contents: what it computes, what it keeps -/

/-- The first stretch leaves the senders' column as row 1 of the edge list it found. -/
theorem first_senders (V : Valuation τ sig (Elt F)) :
    after (hostOps0 (F := F)) V (Proc.devRef .tc main_v3) = senders (V (Proc.devRef .tc main_arg1)) := by
  after_results
  rfl

theorem first_keep_arg0 (V : Valuation τ sig (Elt F)) :
    after (hostOps0 (F := F)) V (Proc.devRef .tc main_arg0) = V (Proc.devRef .tc main_arg0) := by
  after_results

theorem first_keep_arg2 (V : Valuation τ sig (Elt F)) :
    after (hostOps0 (F := F)) V (Proc.devRef .tc main_arg2) = V (Proc.devRef .tc main_arg2) := by
  after_results

theorem first_keep_arg3 (V : Valuation τ sig (Elt F)) :
    after (hostOps0 (F := F)) V (Proc.devRef .tc main_arg3) = V (Proc.devRef .tc main_arg3) := by
  after_results

theorem first_keep_arg4 (V : Valuation τ sig (Elt F)) :
    after (hostOps0 (F := F)) V (Proc.devRef .tc main_arg4) = V (Proc.devRef .tc main_arg4) := by
  after_results

theorem take_keep_arg2 (V : Valuation τ sig (Elt F)) :
    after (hostOps0_1 (F := F)) V (Proc.devRef .tc main_arg2) = V (Proc.devRef .tc main_arg2) := by
  after_results

theorem take_keep_arg3 (V : Valuation τ sig (Elt F)) :
    after (hostOps0_1 (F := F)) V (Proc.devRef .tc main_arg3) = V (Proc.devRef .tc main_arg3) := by
  after_results

theorem take_keep_arg4 (V : Valuation τ sig (Elt F)) :
    after (hostOps0_1 (F := F)) V (Proc.devRef .tc main_arg4) = V (Proc.devRef .tc main_arg4) := by
  after_results

/-- The third stretch converts the gathered rows it found to bf16. -/
theorem third_gathered (V : Valuation τ sig (Elt F)) :
    after (hostOps0_2 (F := F)) V (Proc.devRef .tc main_v5)
      = truncf .bf16 (V (Proc.devRef .tc main_v4)) bitsLt_bf16_f32 := by
  after_results

/-- The third stretch leaves columns 0 to 63 of the weight it found, transposed and converted to bf16. -/
theorem third_w_node_part (V : Valuation τ sig (Elt F)) :
    after (hostOps0_2 (F := F)) V (Proc.devRef .tc main_v8)
      = truncf .bf16 (transpose S64x64 [1, 0] (extractStridedSlice S64x64 ![0, 0] (V (Proc.devRef .tc main_arg3)) slices_S64x96_S64x64_0_0)
          transposes_S64x64_S64x64_1_0) bitsLt_bf16_f32 := by
  after_results

/-- The third stretch leaves columns 64 to 95 of the weight it found, transposed and converted to bf16. -/
theorem third_w_edge_part (V : Valuation τ sig (Elt F)) :
    after (hostOps0_2 (F := F)) V (Proc.devRef .tc main_v11)
      = truncf .bf16 (transpose S32x64 [1, 0] (extractStridedSlice S64x32 ![0, 64] (V (Proc.devRef .tc main_arg3)) slices_S64x96_S64x32_0_64)
          transposes_S64x32_S32x64_1_0) bitsLt_bf16_f32 := by
  after_results

/-- The third stretch leaves the slopes it found as a one-row array. -/
theorem third_slopes (V : Valuation τ sig (Elt F)) :
    after (hostOps0_2 (F := F)) V (Proc.devRef .tc main_v12)
      = shapeCast S1x64 (V (Proc.devRef .tc main_arg4)) shapeCasts_S64_S1x64 := by
  after_results
  rfl

theorem third_keep_arg2 (V : Valuation τ sig (Elt F)) :
    after (hostOps0_2 (F := F)) V (Proc.devRef .tc main_arg2) = V (Proc.devRef .tc main_arg2) := by
  after_results

theorem fourth_keep_v13 (V : Valuation τ sig (Elt F)) :
    after (hostOps1 (F := F)) V (Proc.devRef .tc main_v13) = V (Proc.devRef .tc main_v13) := by
  after_results

/-! ## Region 0's five input arrays as the region finds them, from the launch contents -/

/-- The gathered sender rows, converted to bf16. -/
theorem entry0_gathered (c : Dev nD) :
    (V3 m ρ c main_v5 : FVec F S1600000x64 .bf16)
      = truncf .bf16 (taken (m ((c : Thread nD τ).loc main_arg0)) (senders (m ((c : Thread nD τ).loc main_arg1)))) bitsLt_bf16_f32 := by
  show after hostOps0_2 (after hostOps0_1 (after hostOps0 (W0 m ρ c))) (Proc.devRef .tc main_v5) = _
  rw [third_gathered, stretch1_taken, first_keep_arg0, first_senders]

/-- The edge features: an argument, untouched. -/
theorem entry0_edge_features (c : Dev nD) :
    (V3 m ρ c main_arg2 : FVec F S1600000x32 .f32) = m ((c : Thread nD τ).loc main_arg2) := by
  show after hostOps0_2 (after hostOps0_1 (after hostOps0 (W0 m ρ c))) (Proc.devRef .tc main_arg2) = _
  rw [third_keep_arg2, take_keep_arg2, first_keep_arg2]

/-- The two transposed column ranges of `W_edge`, converted to bf16, and the slopes as a row. -/
theorem entry0_w_node_part (c : Dev nD) :
    (V3 m ρ c main_v8 : FVec F S64x64 .bf16)
      = truncf .bf16 (transpose S64x64 [1, 0] (extractStridedSlice S64x64 ![0, 0] (m ((c : Thread nD τ).loc main_arg3)) slices_S64x96_S64x64_0_0)
          transposes_S64x64_S64x64_1_0) bitsLt_bf16_f32 := by
  show after hostOps0_2 (after hostOps0_1 (after hostOps0 (W0 m ρ c))) (Proc.devRef .tc main_v8) = _
  rw [third_w_node_part, take_keep_arg3, first_keep_arg3]
theorem entry0_w_edge_part (c : Dev nD) :
    (V3 m ρ c main_v11 : FVec F S32x64 .bf16)
      = truncf .bf16 (transpose S32x64 [1, 0] (extractStridedSlice S64x32 ![0, 64] (m ((c : Thread nD τ).loc main_arg3)) slices_S64x96_S64x32_0_64)
          transposes_S64x32_S32x64_1_0) bitsLt_bf16_f32 := by
  show after hostOps0_2 (after hostOps0_1 (after hostOps0 (W0 m ρ c))) (Proc.devRef .tc main_v11) = _
  rw [third_w_edge_part, take_keep_arg3, first_keep_arg3]
theorem entry0_slopes (c : Dev nD) :
    (V3 m ρ c main_v12 : FVec F S1x64 .f32) = shapeCast S1x64 (m ((c : Thread nD τ).loc main_arg4)) shapeCasts_S64_S1x64 := by
  show after hostOps0_2 (after hostOps0_1 (after hostOps0 (W0 m ρ c))) (Proc.devRef .tc main_v12) = _
  rw [third_slopes, take_keep_arg4, first_keep_arg4]

/-! ## The edge result's buffer at the end of the run -/

/-- The updated edge features: region 0's output array, which nothing after region 0 writes. -/
theorem final_edges (c : Dev nD) :
    W6 m ρ c (Proc.devRef .tc main_v13) = (dat0 (V3 m ρ) c).arrAt 5 cfg0.N := by
  refine (W6_of_ne m ρ c main_v13 (by decide)).trans ?_
  refine (fourth_keep_v13 (W4 m ρ c)).trans ?_
  exact W4_arr m ρ c 5

end Cert.KernelIdeal.HostSide

end
-- ==== Proof.HostEntry1.lean ====
import proofs.«402400_j85650237817502_4_alg».proof.Proof.Gen.KernelIdeal.Frame
import proofs.«402400_j85650237817502_4_alg».proof.Proof.HostDefs
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

namespace Entry1

/-! ## Each stretch of host operations, from any buffer contents `V`

What a stretch leaves in one buffer: either the stretch does not write the buffer, or the buffer's operations compose
to a term of the contents `V` at the buffers they read. -/

section Stretches
variable (V : Valuation τ sig (Elt F))

/-- The first stretch makes the receivers out of `edge_index`. -/
theorem first_receivers :
    StableHlo.after hostOps0 V (Proc.devRef .tc main_v1) = receivers (V (Proc.devRef .tc main_arg1)) := by
  after_results
  rfl

/-- The first stretch writes none of the node features, `W_node`, the node slopes. -/
theorem first_keeps_arg0 : StableHlo.after hostOps0 V (Proc.devRef .tc main_arg0) = V (Proc.devRef .tc main_arg0) := by
  after_results
theorem first_keeps_arg5 : StableHlo.after hostOps0 V (Proc.devRef .tc main_arg5) = V (Proc.devRef .tc main_arg5) := by
  after_results
theorem first_keeps_arg6 : StableHlo.after hostOps0 V (Proc.devRef .tc main_arg6) = V (Proc.devRef .tc main_arg6) := by
  after_results

/-- The gather's stretch writes none of the receivers, the node features, `W_node`, the node slopes. -/
theorem take_keeps_v1 : StableHlo.after hostOps0_1 V (Proc.devRef .tc main_v1) = V (Proc.devRef .tc main_v1) := by
  after_results
theorem take_keeps_arg0 : StableHlo.after hostOps0_1 V (Proc.devRef .tc main_arg0) = V (Proc.devRef .tc main_arg0) := by
  after_results
theorem take_keeps_arg5 : StableHlo.after hostOps0_1 V (Proc.devRef .tc main_arg5) = V (Proc.devRef .tc main_arg5) := by
  after_results
theorem take_keeps_arg6 : StableHlo.after hostOps0_1 V (Proc.devRef .tc main_arg6) = V (Proc.devRef .tc main_arg6) := by
  after_results

/-- The edge layer's preparation writes none of them either. -/
theorem prep0_keeps_v1 : StableHlo.after hostOps0_2 V (Proc.devRef .tc main_v1) = V (Proc.devRef .tc main_v1) := by
  after_results
theorem prep0_keeps_arg0 : StableHlo.after hostOps0_2 V (Proc.devRef .tc main_arg0) = V (Proc.devRef .tc main_arg0) := by
  after_results
theorem prep0_keeps_arg5 : StableHlo.after hostOps0_2 V (Proc.devRef .tc main_arg5) = V (Proc.devRef .tc main_arg5) := by
  after_results
theorem prep0_keeps_arg6 : StableHlo.after hostOps0_2 V (Proc.devRef .tc main_arg6) = V (Proc.devRef .tc main_arg6) := by
  after_results

/-- The node layer's preparation: the scatter-add of the messages into zeros at the receivers as a column. -/
theorem prep1_summed :
    StableHlo.after hostOps1 V (Proc.devRef .tc main_v16)
      = Idealize.ShloMosaic.Host.scatterAdd scatter_S100000x64_S1600000x1_S1600000x64_1_0_0_1
          (broadcastInDim S100000x64 ![] bcast_S_S100000x64 (constant S_ .f32 0x00000000#32))
          (broadcastInDim S1600000x1 ![0] bcast_S1600000_S1600000x1_0 (V (Proc.devRef .tc main_v1)))
          (V (Proc.devRef .tc main_v13)) := by
  after_results

/-- It leaves the node features as they were. -/
theorem prep1_keeps_arg0 : StableHlo.after hostOps1 V (Proc.devRef .tc main_arg0) = V (Proc.devRef .tc main_arg0) := by
  after_results

/-- Columns `0 … 63` of `W_node`, transposed and converted. -/
theorem prep1_w_update_part :
    StableHlo.after hostOps1 V (Proc.devRef .tc main_v19)
      = truncf .bf16 (transpose S64x64 [1, 0] (extractStridedSlice S64x64 ![0, 0] (V (Proc.devRef .tc main_arg5)) slices_S64x128_S64x64_0_0)
          transposes_S64x64_S64x64_1_0) bitsLt_bf16_f32 := by
  after_results

/-- Columns `64 … 127` of `W_node`, transposed and converted. -/
theorem prep1_w_feat_part :
    StableHlo.after hostOps1 V (Proc.devRef .tc main_v22)
      = truncf .bf16 (transpose S64x64 [1, 0] (extractStridedSlice S64x64 ![0, 64] (V (Proc.devRef .tc main_arg5)) slices_S64x128_S64x64_0_64)
          transposes_S64x64_S64x64_1_0) bitsLt_bf16_f32 := by
  after_results

/-- The node slopes as a row. -/
theorem prep1_slopes :
    StableHlo.after hostOps1 V (Proc.devRef .tc main_v23) = shapeCast S1x64 (V (Proc.devRef .tc main_arg6)) shapeCasts_S64_S1x64 := by
  after_results
  rfl

end Stretches

/-! ## The buffers region 1's entry reads, at region 0's exit -/

/-- The node features at region 0's exit are the argument. -/
theorem exit0_arg0 (c : Dev nD) : W4 m ρ c (Proc.devRef .tc main_arg0) = m ((c : Thread nD τ).loc main_arg0) :=
  (W4_of_ne m ρ c main_arg0 (by decide)).trans <| (prep0_keeps_arg0 (W2 m ρ c)).trans <|
    (take_keeps_arg0 (W1 m ρ c)).trans <| (first_keeps_arg0 (W0 m ρ c)).trans rfl

/-- `W_node` at region 0's exit is the argument. -/
theorem exit0_arg5 (c : Dev nD) : W4 m ρ c (Proc.devRef .tc main_arg5) = m ((c : Thread nD τ).loc main_arg5) :=
  (W4_of_ne m ρ c main_arg5 (by decide)).trans <| (prep0_keeps_arg5 (W2 m ρ c)).trans <|
    (take_keeps_arg5 (W1 m ρ c)).trans <| (first_keeps_arg5 (W0 m ρ c)).trans rfl

/-- The node slopes at region 0's exit are the argument. -/
theorem exit0_arg6 (c : Dev nD) : W4 m ρ c (Proc.devRef .tc main_arg6) = m ((c : Thread nD τ).loc main_arg6) :=
  (W4_of_ne m ρ c main_arg6 (by decide)).trans <| (prep0_keeps_arg6 (W2 m ρ c)).trans <|
    (take_keeps_arg6 (W1 m ρ c)).trans <| (first_keeps_arg6 (W0 m ρ c)).trans rfl

/-- The receivers at region 0's exit are row 0 of the argument `edge_index`. -/
theorem exit0_receivers (c : Dev nD) :
    W4 m ρ c (Proc.devRef .tc main_v1) = receivers (m ((c : Thread nD τ).loc main_arg1)) :=
  (W4_of_ne m ρ c main_v1 (by decide)).trans <| (prep0_keeps_v1 (W2 m ρ c)).trans <|
    (take_keeps_v1 (W1 m ρ c)).trans <| (first_receivers (W0 m ρ c)).trans rfl

/-- The messages at region 0's exit are region 0's output array. -/
theorem exit0_messages (c : Dev nD) : W4 m ρ c (Proc.devRef .tc main_v13) = (dat0 (V3 m ρ) c).arrAt 5 cfg0.N :=
  W4_arr m ρ c 5

end Entry1

open Entry1

/-! ## Region 1's five input arrays as the region finds them -/

/-- The messages summed onto their receivers: the host's scatter-add of region 0's output array into zeros. -/
theorem entry1_summed (c : Dev nD) :
    (V5 m ρ c main_v16 : FVec F S100000x64 .f32)
      = Idealize.ShloMosaic.Host.scatterAdd scatter_S100000x64_S1600000x1_S1600000x64_1_0_0_1
          (broadcastInDim S100000x64 ![] bcast_S_S100000x64 (constant S_ .f32 0x00000000#32))
          (broadcastInDim S1600000x1 ![0] bcast_S1600000_S1600000x1_0 (receivers (m ((c : Thread nD τ).loc main_arg1))))
          ((dat0 (V3 m ρ) c).arrAt 5 cfg0.N) := by
  show StableHlo.after hostOps1 (W4 m ρ c) (Proc.devRef .tc main_v16) = _
  rw [prep1_summed, exit0_receivers, exit0_messages]

/-- The node features: an argument, untouched. -/
theorem entry1_node_features (c : Dev nD) :
    (V5 m ρ c main_arg0 : FVec F S100000x64 .f32) = m ((c : Thread nD τ).loc main_arg0) := by
  show StableHlo.after hostOps1 (W4 m ρ c) (Proc.devRef .tc main_arg0) = _
  rw [prep1_keeps_arg0, exit0_arg0]

/-- The two transposed column ranges of `W_node`, converted to bf16, and the slopes as a row. -/
theorem entry1_w_update_part (c : Dev nD) :
    (V5 m ρ c main_v19 : FVec F S64x64 .bf16)
      = truncf .bf16 (transpose S64x64 [1, 0] (extractStridedSlice S64x64 ![0, 0] (m ((c : Thread nD τ).loc main_arg5)) slices_S64x128_S64x64_0_0)
          transposes_S64x64_S64x64_1_0) bitsLt_bf16_f32 := by
  show StableHlo.after hostOps1 (W4 m ρ c) (Proc.devRef .tc main_v19) = _
  rw [prep1_w_update_part, exit0_arg5]
theorem entry1_w_feat_part (c : Dev nD) :
    (V5 m ρ c main_v22 : FVec F S64x64 .bf16)
      = truncf .bf16 (transpose S64x64 [1, 0] (extractStridedSlice S64x64 ![0, 64] (m ((c : Thread nD τ).loc main_arg5)) slices_S64x128_S64x64_0_64)
          transposes_S64x64_S64x64_1_0) bitsLt_bf16_f32 := by
  show StableHlo.after hostOps1 (W4 m ρ c) (Proc.devRef .tc main_v22) = _
  rw [prep1_w_feat_part, exit0_arg5]
theorem entry1_slopes (c : Dev nD) :
    (V5 m ρ c main_v23 : FVec F S1x64 .f32) = shapeCast S1x64 (m ((c : Thread nD τ).loc main_arg6)) shapeCasts_S64_S1x64 := by
  show StableHlo.after hostOps1 (W4 m ρ c) (Proc.devRef .tc main_v23) = _
  rw [prep1_slopes, exit0_arg6]

/-! ## The node result's buffer at the end of the run -/

/-- The updated node features: region 1's output array. -/
theorem final_nodes (c : Dev nD) :
    W6 m ρ c (Proc.devRef .tc main_v24) = (dat1 (V5 m ρ) c).arrAt 5 cfg1.N :=
  W6_arr m ρ c 5

end Cert.KernelIdeal.HostSide

end
-- ==== Proof.PreRead.lean ====
import proofs.«402400_j85650237817502_4_alg».proof.Pre_finite_inputs
import proofs.«402400_j85650237817502_4_alg».proof.Proof.Gen.Pre_finite_inputs
import proofs.«402400_j85650237817502_4_alg».proof.Proof.HostDefs
import Idealize.ShloMosaic.PureOps.Ideal
import Idealize.ShloMosaic.Lib.ReduceAll
import Idealize.ShloMosaic.Lib.Affine
import Idealize.ShloMosaic.Lib.StableHlo.Predicate
import Idealize.ShloMosaic.Lib.ValueIdx
import Idealize.ShloMosaic.Lib.Pipeline.Value

set_option maxRecDepth 16384

noncomputable section

namespace Cert.KernelIdeal.PreRead

open Cert.KernelIdeal Cert.KernelIdeal.Gen Cert.KernelIdeal.HostSide
open Idealize.ShloMosaic Idealize.ShloMosaic.TcCoe Idealize.ShloMosaic.ValueIdx

/-- What the precondition says of the senders: each lies in `[0, 100000)`, read as a signed word. -/
theorem senders_range (x0 : FVec Ideal S100000x64 .f32) (x1 : IVec S2x1600000 32) (x2 : FVec Ideal S1600000x32 .f32)
    (x3 : FVec Ideal S64x96 .f32) (x4 : FVec Ideal S64 .f32) (x5 : FVec Ideal S64x128 .f32) (x6 : FVec Ideal S64 .f32)
    (h : Cert.Pre_finite_inputs.fn (F := Ideal) x0 x1 x2 x3 x4 x5 x6 = fun _ => 1#1) (e : S1600000.Idx) :
    0 ≤ (senders x1 e).toInt ∧ (senders x1 e).toInt < 100000 := by
  have h0 := congrFun h ValueIdx.ix0
  unfold Cert.Pre_finite_inputs.fn Cert.Pre_finite_inputs.fn_part1 Cert.Pre_finite_inputs.fn_part2 at h0
  dsimp only at h0
  obtain ⟨-, h1⟩ := IntOp.andi_eq_one.1 h0
  have h2 := Host.reduce_andi_eq_one _ _ _ _ _ h1 e (funext fun d => d.elim0)
  obtain ⟨h3, h4⟩ := IntOp.andi_eq_one.1 h2
  have h5 : (0#32 : BitVec 32).toInt ≤ (senders x1 e).toInt := IntOp.cmpi_sge.1 h3
  have h6 : (senders x1 e).toInt < (100000#32 : BitVec 32).toInt := IntOp.cmpi_slt.1 h4
  rw [show (0#32 : BitVec 32).toInt = 0 from by decide] at h5
  rw [show (100000#32 : BitVec 32).toInt = 100000 from by decide] at h6
  exact ⟨h5, h6⟩

/-! ## The fill-mode mask is all ones when every sender is in range -/

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and` from the constant 1 of a mask that is 1 everywhere is 1 at every result index. -/
theorem reduce_andi_of_all {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_one x hx _

/-- A property of every element of a broadcast operand is a property of every element of the broadcast. -/
theorem bcast_forall {α : Type} {s t : Shape} (dims : Fin s.rank → Fin t.rank) (h : s.BroadcastsInDim t dims)
    (x : s.Idx → α) (P : α → Prop) (hx : ∀ k, P (x k)) (j : t.Idx) : P (broadcastInDim t dims h x j) := by
  unfold broadcastInDim
  exact hx _

/-- A sender in `[0, 100000)` is not wrapped, so every start index lies in `[0, 99999]`. -/
theorem startIdx_range (s : IVec S1600000 32) (hs : ∀ e : S1600000.Idx, 0 ≤ (s e).toInt ∧ (s e).toInt < 100000)
    (i : S1600000x1.Idx) : 0 ≤ (startIdx s i).toInt ∧ (startIdx s i).toInt ≤ 99999 := by
  unfold startIdx
  refine bcast_forall _ _ _ (fun v : BitVec 32 => 0 ≤ v.toInt ∧ v.toInt ≤ 99999) (fun k => ?_) i
  show 0 ≤ (Scalar.select (IntOp.cmpi .slt (s k) 0#32) (IntOp.addi (s k) 100000#32) (s k)).toInt
    ∧ (Scalar.select (IntOp.cmpi .slt (s k) 0#32) (IntOp.addi (s k) 100000#32) (s k)).toInt ≤ 99999
  obtain ⟨h1, h2⟩ := hs k
  have hn : ¬IntOp.cmpi .slt (s k) 0#32 = 1#1 := by
    rw [IntOp.cmpi_slt, show (0#32 : BitVec 32).toInt = 0 from by decide]; omega
  rw [eq_zero_of_ne_one hn, select_zero]
  omega

/-- So both bound checks hold at every start index … -/
theorem mask_one (s : IVec S1600000 32) (hs : ∀ e : S1600000.Idx, 0 ≤ (s e).toInt ∧ (s e).toInt < 100000)
    (i : S1600000x1.Idx) :
    IntOp.andi (IntOp.cmpi .sge (startIdx s i) 0#32) (IntOp.cmpi .sle (startIdx s i) 99999#32) = 1#1 := by
  obtain ⟨h1, h2⟩ := startIdx_range s hs i
  rw [IntOp.andi_eq_one, IntOp.cmpi_sge, IntOp.cmpi_sle, show (0#32 : BitVec 32).toInt = 0 from by decide,
    show (99999#32 : BitVec 32).toInt = 99999 from by decide]
  exact ⟨h1, h2⟩

/-- … and the mask of kept rows is 1 everywhere. -/
theorem inRange_one (s : IVec S1600000 32) (hs : ∀ e : S1600000.Idx, 0 ≤ (s e).toInt ∧ (s e).toInt < 100000)
    (j : S1600000x64.Idx) : inRange (startIdx s) j = 1#1 := by
  unfold inRange
  refine bcast_forall _ _ _ (fun v : BitVec 1 => v = 1#1) (fun k => ?_) j
  exact reduce_andi_of_all _ _ _ (fun i => mask_one s hs i) k

/-- With every sender in range no gathered row is filled: the fill-mode gather is the plain gather. -/
theorem taken_eq_gather (x0 : FVec Ideal S100000x64 .f32) (s : IVec S1600000 32)
    (hs : ∀ e : S1600000.Idx, 0 ≤ (s e).toInt ∧ (s e).toInt < 100000) :
    taken (F := Ideal) x0 s
      = Idealize.ShloMosaic.Host.gather gather_S100000x64_S1600000x1_S1600000x64_1_0_n_n_0_1_164 x0 (startIdx s) := by
  funext j
  unfold taken
  rw [select_apply, inRange_one s hs j, select_one]

end Cert.KernelIdeal.PreRead

end
-- ==== Proof.Weights.lean ====
import proofs.«402400_j85650237817502_4_alg».proof.Proof.Gen.KernelIdeal
import proofs.«402400_j85650237817502_4_alg».proof.Proof.Spec
import Idealize.ShloMosaic.PureOps.Ideal
import Idealize.ShloMosaic.Lib.ValueIdx
import Idealize.ShloMosaic.Lib.Pipeline.Value
import Idealize.ShloMosaic.Lib.ValueLayout

noncomputable section

namespace Cert.KernelIdeal.Weights

open Cert.KernelIdeal Cert.KernelIdeal.Gen
open Idealize.ShloMosaic Idealize.ShloMosaic.TcCoe Idealize.ShloMosaic.ValueIdx

/-- The edge layer's weights on the gathered sender row: columns `0 … 63` of `W_edge`, transposed. -/
theorem edge_node_part (x3 : FVec Ideal S64x96 .f32) :
    (truncf .bf16 (transpose S64x64 [1, 0] (extractStridedSlice S64x64 ![0, 0] x3 slices_S64x96_S64x64_0_0)
      transposes_S64x64_S64x64_1_0) bitsLt_bf16_f32 : FVec Ideal S64x64 .bf16) = Cert.Spec.wT 0 64 x3 := by
  funext i
  obtain ⟨k, q, rfl⟩ : ∃ (k : Fin 64) (q : Fin 64), i = ix2 k q := ⟨i 0, i 1, eq_ix2 i⟩
  have hk : 0 + k.val < 96 := by have := k.isLt; omega
  rw [truncf_apply]
  refine (transpose_apply [1, 0] _ transposes_S64x64_S64x64_1_0 (ix2 k q) (ix2 q k) (fun b => match b with
    | ⟨0, _⟩ => rfl
    | ⟨1, _⟩ => rfl)).trans ?_
  refine (extractStridedSlice_apply ![0, 0] x3 slices_S64x96_S64x64_0_0 (ix2 q k) (ix2 q (⟨0 + k.val, hk⟩ : Fin 96)) (fun a => match a with
    | ⟨0, _⟩ => by show q.val = 0 + q.val; omega
    | ⟨1, _⟩ => by show 0 + k.val = 0 + k.val; rfl)).trans ?_
  rfl

/-- The edge layer's weights on the edge row: columns `64 … 95` of `W_edge`, transposed. -/
theorem edge_edge_part (x3 : FVec Ideal S64x96 .f32) :
    (truncf .bf16 (transpose S32x64 [1, 0] (extractStridedSlice S64x32 ![0, 64] x3 slices_S64x96_S64x32_0_64)
      transposes_S64x32_S32x64_1_0) bitsLt_bf16_f32 : FVec Ideal S32x64 .bf16) = Cert.Spec.wT 64 32 x3 := by
  funext i
  obtain ⟨k, q, rfl⟩ : ∃ (k : Fin 32) (q : Fin 64), i = ix2 k q := ⟨i 0, i 1, eq_ix2 i⟩
  have hk : 64 + k.val < 96 := by have := k.isLt; omega
  rw [truncf_apply]
  refine (transpose_apply [1, 0] _ transposes_S64x32_S32x64_1_0 (ix2 k q) (ix2 q k) (fun b => match b with
    | ⟨0, _⟩ => rfl
    | ⟨1, _⟩ => rfl)).trans ?_
  refine (extractStridedSlice_apply ![0, 64] x3 slices_S64x96_S64x32_0_64 (ix2 q k) (ix2 q (⟨64 + k.val, hk⟩ : Fin 96)) (fun a => match a with
    | ⟨0, _⟩ => by show q.val = 0 + q.val; omega
    | ⟨1, _⟩ => by show 64 + k.val = 64 + k.val; rfl)).trans ?_
  rfl

/-- The node layer's weights on the summed messages: columns `0 … 63` of `W_node`, transposed. -/
theorem node_update_part (x5 : FVec Ideal S64x128 .f32) :
    (truncf .bf16 (transpose S64x64 [1, 0] (extractStridedSlice S64x64 ![0, 0] x5 slices_S64x128_S64x64_0_0)
      transposes_S64x64_S64x64_1_0) bitsLt_bf16_f32 : FVec Ideal S64x64 .bf16) = Cert.Spec.wT 0 64 x5 := by
  funext i
  obtain ⟨k, q, rfl⟩ : ∃ (k : Fin 64) (q : Fin 64), i = ix2 k q := ⟨i 0, i 1, eq_ix2 i⟩
  have hk : 0 + k.val < 128 := by have := k.isLt; omega
  rw [truncf_apply]
  refine (transpose_apply [1, 0] _ transposes_S64x64_S64x64_1_0 (ix2 k q) (ix2 q k) (fun b => match b with
    | ⟨0, _⟩ => rfl
    | ⟨1, _⟩ => rfl)).trans ?_
  refine (extractStridedSlice_apply ![0, 0] x5 slices_S64x128_S64x64_0_0 (ix2 q k) (ix2 q (⟨0 + k.val, hk⟩ : Fin 128)) (fun a => match a with
    | ⟨0, _⟩ => by show q.val = 0 + q.val; omega
    | ⟨1, _⟩ => by show 0 + k.val = 0 + k.val; rfl)).trans ?_
  rfl

/-- The node layer's weights on the node row: columns `64 … 127` of `W_node`, transposed. -/
theorem node_feat_part (x5 : FVec Ideal S64x128 .f32) :
    (truncf .bf16 (transpose S64x64 [1, 0] (extractStridedSlice S64x64 ![0, 64] x5 slices_S64x128_S64x64_0_64)
      transposes_S64x64_S64x64_1_0) bitsLt_bf16_f32 : FVec Ideal S64x64 .bf16) = Cert.Spec.wT 64 64 x5 := by
  funext i
  obtain ⟨k, q, rfl⟩ : ∃ (k : Fin 64) (q : Fin 64), i = ix2 k q := ⟨i 0, i 1, eq_ix2 i⟩
  have hk : 64 + k.val < 128 := by have := k.isLt; omega
  rw [truncf_apply]
  refine (transpose_apply [1, 0] _ transposes_S64x64_S64x64_1_0 (ix2 k q) (ix2 q k) (fun b => match b with
    | ⟨0, _⟩ => rfl
    | ⟨1, _⟩ => rfl)).trans ?_
  refine (extractStridedSlice_apply ![0, 64] x5 slices_S64x128_S64x64_0_64 (ix2 q k) (ix2 q (⟨64 + k.val, hk⟩ : Fin 128)) (fun a => match a with
    | ⟨0, _⟩ => by show q.val = 0 + q.val; omega
    | ⟨1, _⟩ => by show 64 + k.val = 64 + k.val; rfl)).trans ?_
  rfl

/-- The slopes `[64]` reshaped to the row `[1, 64]` the kernels read. -/
theorem slope_row (x4 : FVec Ideal S64 .f32) :
    (shapeCast S1x64 x4 shapeCasts_S64_S1x64 : FVec Ideal S1x64 .f32) = Cert.Spec.αRow x4 := by
  funext i
  obtain ⟨z, q, rfl⟩ : ∃ (z : Fin 1) (q : Fin 64), i = ix2 z q := ⟨i 0, i 1, eq_ix2 i⟩
  refine (shapeCast_apply x4 shapeCasts_S64_S1x64 (ix2 z q) (ix1 q) (by
    rewrite [Shape.rowMajor_val_one, Shape.rowMajor_val_two]
    have hz : z.val < 1 := z.isLt
    show q.val = z.val * 64 + q.val
    omega)).trans ?_
  rfl

end Cert.KernelIdeal.Weights

end
-- ==== Proof.KernelResults.lean ====
import proofs.«402400_j85650237817502_4_alg».proof.Defs
import proofs.«402400_j85650237817502_4_alg».proof.Proof.RunAll
import proofs.«402400_j85650237817502_4_alg».proof.Proof.Spec
import proofs.«402400_j85650237817502_4_alg».proof.Proof.EdgeArray
import proofs.«402400_j85650237817502_4_alg».proof.Proof.NodeArray
import proofs.«402400_j85650237817502_4_alg».proof.Proof.HostDefs
import proofs.«402400_j85650237817502_4_alg».proof.Proof.HostEntry0
import proofs.«402400_j85650237817502_4_alg».proof.Proof.HostEntry1
import proofs.«402400_j85650237817502_4_alg».proof.Proof.PreRead
import proofs.«402400_j85650237817502_4_alg».proof.Proof.Weights

set_option maxRecDepth 16384

noncomputable section

namespace Cert.KernelIdeal.Results

open Cert.KernelIdeal Cert.KernelIdeal.Gen Cert.KernelIdeal.HostSide
open Idealize.ShloMosaic Idealize.ShloMosaic.TcCoe Idealize.ShloMosaic.ValueIdx Idealize.SL.Sem

/-! ## The two results as functions of the arguments -/

/-- The updated edge features: for edge `e` and channel `q`,
    `prelu (∑ₖ nodes[senders e, k] · W_edge[q, k] + ∑ₖ edges[e, k] · W_edge[q, 64 + k]) α_edge[q]`. -/
def edgesOut (x0 : FVec Ideal S100000x64 .f32) (x1 : IVec S2x1600000 32) (x2 : FVec Ideal S1600000x32 .f32)
    (x3 : FVec Ideal S64x96 .f32) (x4 : FVec Ideal S64 .f32) : FVec Ideal S1600000x64 .f32 :=
  Cert.Spec.splitLin
    (Idealize.ShloMosaic.Host.gather gather_S100000x64_S1600000x1_S1600000x64_1_0_n_n_0_1_164 x0 (startIdx (senders x1)))
    x2 (Cert.Spec.wT 0 64 x3) (Cert.Spec.wT 64 32 x3) (Cert.Spec.αRow x4)

/-- The updated node features: for node `n` and channel `q`,
    `prelu (∑ₖ summed[n, k] · W_node[q, k] + ∑ₖ nodes[n, k] · W_node[q, 64 + k]) α_node[q]`, where `summed` adds the updated
    edge features of the edges received by each node. -/
def nodesOut (x0 : FVec Ideal S100000x64 .f32) (x1 : IVec S2x1600000 32) (x2 : FVec Ideal S1600000x32 .f32)
    (x3 : FVec Ideal S64x96 .f32) (x4 : FVec Ideal S64 .f32) (x5 : FVec Ideal S64x128 .f32) (x6 : FVec Ideal S64 .f32) :
    FVec Ideal S100000x64 .f32 :=
  Cert.Spec.splitLin
    (Idealize.ShloMosaic.Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 (receivers x1))
      (edgesOut x0 x1 x2 x3 x4))
    x0 (Cert.Spec.wT 0 64 x5) (Cert.Spec.wT 64 64 x5) (Cert.Spec.αRow x6)

/-! ## The kernel program computes them, where every sender is in range -/

variable (m : (ℓ : Loc nD τ sig) → Buf (Elt Ideal) ℓ) (ρ : Dev nD → PrngReg)

/-- A change of float format is the identity on extended reals. -/
theorem truncf_bf16_id {s : Shape} (a : FVec Ideal s .f32) : (truncf .bf16 a bitsLt_bf16_f32 : FVec Ideal s .bf16) = a := rfl

/-- Region 0's output array is the updated edge features. -/
theorem edges_eq (hpre : Cert.Pre_KernelIdeal m) (c : Dev nD) :
    (dat0 (F := Ideal) (V3 m ρ) c).arrAt 5 cfg0.N
      = edgesOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [Cert.KernelIdeal.Edge.arr_eq]
  unfold edgesOut
  have g : Cert.KernelIdeal.Edge.gat (V3 m ρ) c
      = Idealize.ShloMosaic.Host.gather gather_S100000x64_S1600000x1_S1600000x64_1_0_n_n_0_1_164 (m ((c.tc : Thread nD τ).loc main_arg0)) (startIdx (senders (m ((c.tc : Thread nD τ).loc main_arg1)))) := by
    show (V3 m ρ c main_v5 : FVec Ideal S1600000x64 .bf16) = _
    rw [entry0_gathered, truncf_bf16_id]
    exact Cert.KernelIdeal.PreRead.taken_eq_gather _ _
      (Cert.KernelIdeal.PreRead.senders_range _ _ _ _ _ _ _ (hpre c))
  have e : Cert.KernelIdeal.Edge.efe (V3 m ρ) c = (m ((c.tc : Thread nD τ).loc main_arg2)) := entry0_edge_features m ρ c
  have wn : Cert.KernelIdeal.Edge.wna (V3 m ρ) c = Cert.Spec.wT 0 64 (m ((c.tc : Thread nD τ).loc main_arg3)) :=
    (entry0_w_node_part m ρ c).trans (Cert.KernelIdeal.Weights.edge_node_part _)
  have we : Cert.KernelIdeal.Edge.wea (V3 m ρ) c = Cert.Spec.wT 64 32 (m ((c.tc : Thread nD τ).loc main_arg3)) :=
    (entry0_w_edge_part m ρ c).trans (Cert.KernelIdeal.Weights.edge_edge_part _)
  have al : Cert.KernelIdeal.Edge.alp (V3 m ρ) c = Cert.Spec.αRow (m ((c.tc : Thread nD τ).loc main_arg4)) :=
    (entry0_slopes m ρ c).trans (Cert.KernelIdeal.Weights.slope_row _)
  rw [g, e, wn, we, al]

/-- Region 1's output array is the updated node features. -/
theorem nodes_eq (hpre : Cert.Pre_KernelIdeal m) (c : Dev nD) :
    (dat1 (F := Ideal) (V5 m ρ) c).arrAt 5 cfg1.N
      = nodesOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [Cert.KernelIdeal.Node.arr_eq]
  unfold nodesOut
  have u : Cert.KernelIdeal.Node.upd (V5 m ρ) c
      = Idealize.ShloMosaic.Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (receivers (m ((c.tc : Thread nD τ).loc main_arg1))))
          (edgesOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
    show (V5 m ρ c main_v16 : FVec Ideal S100000x64 .f32) = _
    rw [entry1_summed, edges_eq m ρ hpre c]
  have nf : Cert.KernelIdeal.Node.nfe (V5 m ρ) c = (m ((c.tc : Thread nD τ).loc main_arg0)) := entry1_node_features m ρ c
  have wu : Cert.KernelIdeal.Node.wua (V5 m ρ) c = Cert.Spec.wT 0 64 (m ((c.tc : Thread nD τ).loc main_arg5)) :=
    (entry1_w_update_part m ρ c).trans (Cert.KernelIdeal.Weights.node_update_part _)
  have wf : Cert.KernelIdeal.Node.wfa (V5 m ρ) c = Cert.Spec.wT 64 64 (m ((c.tc : Thread nD τ).loc main_arg5)) :=
    (entry1_w_feat_part m ρ c).trans (Cert.KernelIdeal.Weights.node_feat_part _)
  have al : Cert.KernelIdeal.Node.alp (V5 m ρ) c = Cert.Spec.αRow (m ((c.tc : Thread nD τ).loc main_arg6)) :=
    (entry1_slopes m ρ c).trans (Cert.KernelIdeal.Weights.slope_row _)
  rw [u, nf, wu, wf, al]

/-- The kernel program's run, read: both results at their functions of the arguments, the arguments unchanged. -/
theorem run (hpre : Cert.Pre_KernelIdeal m) :
    θ_run (defs (F := Ideal)) (onTc (τ := τ) (main (F := Ideal))) ⟨m, fun _ => 0, ρ⟩ fun r => ∀ c : Dev nD,
      r.2.mem ((c.tc : Thread nD τ).loc main_v24) = nodesOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v13) = edgesOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨(h c main_v24 (by decide)).trans ((final_nodes m ρ c).trans (nodes_eq m ρ hpre c)),
     (h c main_v13 (by decide)).trans ((final_edges m ρ c).trans (edges_eq m ρ hpre c)),
     (h c main_arg0 (by decide)).trans (W6_main_arg0 m ρ c),
     (h c main_arg1 (by decide)).trans (W6_main_arg1 m ρ c),
     (h c main_arg2 (by decide)).trans (W6_main_arg2 m ρ c),
     (h c main_arg3 (by decide)).trans (W6_main_arg3 m ρ c),
     (h c main_arg4 (by decide)).trans (W6_main_arg4 m ρ c),
     (h c main_arg5 (by decide)).trans (W6_main_arg5 m ρ c),
     (h c main_arg6 (by decide)).trans (W6_main_arg6 m ρ c)⟩)
    (Cert.KernelIdeal.RunAll.run_all m ρ)

end Cert.KernelIdeal.Results

end
-- ==== Proof.Reference.lean ====
import proofs.«402400_j85650237817502_4_alg».proof.Defs
import proofs.«402400_j85650237817502_4_alg».proof.Proof.RefRun
import proofs.«402400_j85650237817502_4_alg».proof.Proof.RefRead
import proofs.«402400_j85650237817502_4_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.ShloMosaic.ValueIdx Idealize.SL.Sem Idealize.ShloMosaic.StableHlo

section Stretches

variable {F : FTy → Type} [FloatOps F]

/-- The first stretch of the program: the senders' and receivers' columns of the edge list, the wrap of negative sender indices, and the gather of the sender rows. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v3 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v3 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v3 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) ]

/-- The second stretch: the gathered rows joined with the edge rows, the linear layer and PReLU of the edge update. -/
abbrev opsB : List (HloOp τ sig (Elt F)) :=
  [ binary main_v10 main_arg2 main_v11 ((fun a b => concatenate S1600000x96 1 [⟨S1600000x64, a⟩, ⟨S1600000x32, b⟩] concatenates_S1600000x64_S1600000x32_S1600000x96_d1) : (⟨S1600000x64, .f32⟩ : BufTy).Contents (Elt F) → (⟨S1600000x32, .f32⟩ : BufTy).Contents (Elt F) → (⟨S1600000x96, .f32⟩ : BufTy).Contents (Elt F)),
    unary main_arg3 main_v12 ((transpose S96x64 [1, 0] · transposes_S64x96_S96x64_1_0) : (⟨S64x96, .f32⟩ : BufTy).Contents (Elt F) → (⟨S96x64, .f32⟩ : BufTy).Contents (Elt F)),
    binary main_v11 main_v12 main_v13 ((fun l r => Host.dotGeneral dot_S1600000x96_S96x64_S1600000x64_1_0_0_1_n_n none l r) : (⟨S1600000x96, .f32⟩ : BufTy).Contents (Elt F) → (⟨S96x64, .f32⟩ : BufTy).Contents (Elt F) → (⟨S1600000x64, .f32⟩ : BufTy).Contents (Elt F)),
    nullary main_cst (constant S_ .f32 0x00000000#32),
    unary main_cst main_v14 (broadcastInDim S1600000x64 ![] bcast_S_S1600000x64 : (⟨S_, .f32⟩ : BufTy).Contents (Elt F) → (⟨S1600000x64, .f32⟩ : BufTy).Contents (Elt F)),
    binary main_v13 main_v14 main_v15 (cmpf .oge : (⟨S1600000x64, .f32⟩ : BufTy).Contents (Elt F) → (⟨S1600000x64, .f32⟩ : BufTy).Contents (Elt F) → (⟨S1600000x64, .i1⟩ : BufTy).Contents (Elt F)),
    unary main_arg4 main_v16 (broadcastInDim S1x64 ![1] bcast_S64_S1x64_1 : (⟨S64, .f32⟩ : BufTy).Contents (Elt F) → (⟨S1x64, .f32⟩ : BufTy).Contents (Elt F)),
    unary main_v16 main_v17 (broadcastInDim S1600000x64 ![0, 1] bcast_S1x64_S1600000x64_0_1 : (⟨S1x64, .f32⟩ : BufTy).Contents (Elt F) → (⟨S1600000x64, .f32⟩ : BufTy).Contents (Elt F)),
    binary main_v17 main_v13 main_v18 (mulf : (⟨S1600000x64, .f32⟩ : BufTy).Contents (Elt F) → (⟨S1600000x64, .f32⟩ : BufTy).Contents (Elt F) → (⟨S1600000x64, .f32⟩ : BufTy).Contents (Elt F)),
    TRef.ternary (TRef.of (T := ⟨S1600000x64, .i1⟩) main_v15) (TRef.of (T := ⟨S1600000x64, .f32⟩) main_v13) (TRef.of (T := ⟨S1600000x64, .f32⟩) main_v18) (TRef.of (T := ⟨S1600000x64, .f32⟩) main_v19) select ]

/-- The third stretch: the updated edge rows summed into their receivers' rows. -/
abbrev opsC : List (HloOp τ sig (Elt F)) :=
  [ nullary main_cst_1 (constant S_ .f32 0x00000000#32),
    unary main_cst_1 main_v20 (broadcastInDim S100000x64 ![] bcast_S_S100000x64 : (⟨S_, .f32⟩ : BufTy).Contents (Elt F) → (⟨S100000x64, .f32⟩ : BufTy).Contents (Elt F)),
    unary main_v1 main_v21 (broadcastInDim S1600000x1 ![0] bcast_S1600000_S1600000x1_0 : (⟨S1600000, .i32⟩ : BufTy).Contents (Elt F) → (⟨S1600000x1, .i32⟩ : BufTy).Contents (Elt F)),
    ternary main_v20 main_v21 main_v19 main_v22 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The fourth stretch: the summed messages joined with the node rows, the linear layer and PReLU of the node update. -/
abbrev opsD : List (HloOp τ sig (Elt F)) :=
  [ binary main_v22 main_arg0 main_v23 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg5 main_v24 ((transpose S128x64 [1, 0] · transposes_S64x128_S128x64_1_0) : (⟨S64x128, .f32⟩ : BufTy).Contents (Elt F) → (⟨S128x64, .f32⟩ : BufTy).Contents (Elt F)),
    binary main_v23 main_v24 main_v25 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_cst_2 (constant S_ .f32 0x00000000#32),
    unary main_cst_2 main_v26 (broadcastInDim S100000x64 ![] bcast_S_S100000x64 : (⟨S_, .f32⟩ : BufTy).Contents (Elt F) → (⟨S100000x64, .f32⟩ : BufTy).Contents (Elt F)),
    binary main_v25 main_v26 main_v27 (cmpf .oge : (⟨S100000x64, .f32⟩ : BufTy).Contents (Elt F) → (⟨S100000x64, .f32⟩ : BufTy).Contents (Elt F) → (⟨S100000x64, .i1⟩ : BufTy).Contents (Elt F)),
    unary main_arg6 main_v28 (broadcastInDim S1x64 ![1] bcast_S64_S1x64_1 : (⟨S64, .f32⟩ : BufTy).Contents (Elt F) → (⟨S1x64, .f32⟩ : BufTy).Contents (Elt F)),
    unary main_v28 main_v29 (broadcastInDim S100000x64 ![0, 1] bcast_S1x64_S100000x64_0_1 : (⟨S1x64, .f32⟩ : BufTy).Contents (Elt F) → (⟨S100000x64, .f32⟩ : BufTy).Contents (Elt F)),
    binary main_v29 main_v25 main_v30 (mulf : (⟨S100000x64, .f32⟩ : BufTy).Contents (Elt F) → (⟨S100000x64, .f32⟩ : BufTy).Contents (Elt F) → (⟨S100000x64, .f32⟩ : BufTy).Contents (Elt F)),
    TRef.ternary (TRef.of (T := ⟨S100000x64, .i1⟩) main_v27) (TRef.of (T := ⟨S100000x64, .f32⟩) main_v25) (TRef.of (T := ⟨S100000x64, .f32⟩) main_v30) (TRef.of (T := ⟨S100000x64, .f32⟩) main_v31) select ]

/-- The program's operations are the four stretches in a row. -/
theorem ops_split : (ops (F := F)) = opsA ++ (opsB ++ (opsC ++ opsD)) := rfl

/-- The edge update as a function of the gathered sender rows `g`: the rows `[g | x2]` times the transposed weight,
    then PReLU with the per-channel slopes `x4`. -/
def edgeStage (g : (⟨S1600000x64, .f32⟩ : BufTy).Contents (Elt F)) (x2 : (⟨S1600000x32, .f32⟩ : BufTy).Contents (Elt F))
    (x3 : (⟨S64x96, .f32⟩ : BufTy).Contents (Elt F)) (x4 : (⟨S64, .f32⟩ : BufTy).Contents (Elt F)) :
    (⟨S1600000x64, .f32⟩ : BufTy).Contents (Elt F) :=
  select (cmpf .oge (Host.dotGeneral dot_S1600000x96_S96x64_S1600000x64_1_0_0_1_n_n none (concatenate S1600000x96 1 [⟨S1600000x64, g⟩, ⟨S1600000x32, x2⟩] concatenates_S1600000x64_S1600000x32_S1600000x96_d1) (transpose S96x64 [1, 0] x3 transposes_S64x96_S96x64_1_0)) (broadcastInDim S1600000x64 ![] bcast_S_S1600000x64 (constant S_ .f32 0x00000000#32)))
    (Host.dotGeneral dot_S1600000x96_S96x64_S1600000x64_1_0_0_1_n_n none (concatenate S1600000x96 1 [⟨S1600000x64, g⟩, ⟨S1600000x32, x2⟩] concatenates_S1600000x64_S1600000x32_S1600000x96_d1) (transpose S96x64 [1, 0] x3 transposes_S64x96_S96x64_1_0))
    (mulf (broadcastInDim S1600000x64 ![0, 1] bcast_S1x64_S1600000x64_0_1 (broadcastInDim S1x64 ![1] bcast_S64_S1x64_1 x4)) (Host.dotGeneral dot_S1600000x96_S96x64_S1600000x64_1_0_0_1_n_n none (concatenate S1600000x96 1 [⟨S1600000x64, g⟩, ⟨S1600000x32, x2⟩] concatenates_S1600000x64_S1600000x32_S1600000x96_d1) (transpose S96x64 [1, 0] x3 transposes_S64x96_S96x64_1_0)))

/-- The message sum as a function of the receivers' column `rc` and the updated edge rows `e`: `e`'s rows added into a
    zero array at the rows `rc` names. -/
def sumStage (rc : (⟨S1600000, .i32⟩ : BufTy).Contents (Elt F)) (e : (⟨S1600000x64, .f32⟩ : BufTy).Contents (Elt F)) :
    (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 rc) e

/-- The node update as a function of the summed messages `s`: the rows `[s | x0]` times the transposed weight, then
    PReLU with the per-channel slopes `x6`. -/
def nodeStage (s : (⟨S100000x64, .f32⟩ : BufTy).Contents (Elt F)) (x0 : (⟨S100000x64, .f32⟩ : BufTy).Contents (Elt F))
    (x5 : (⟨S64x128, .f32⟩ : BufTy).Contents (Elt F)) (x6 : (⟨S64, .f32⟩ : BufTy).Contents (Elt F)) :
    (⟨S100000x64, .f32⟩ : BufTy).Contents (Elt F) :=
  select (cmpf .oge (Host.dotGeneral dot_S100000x128_S128x64_S100000x64_1_0_0_1_n_n none (concatenate S100000x128 1 [⟨S100000x64, s⟩, ⟨S100000x64, x0⟩] concatenates_S100000x64_S100000x64_S100000x128_d1) (transpose S128x64 [1, 0] x5 transposes_S64x128_S128x64_1_0)) (broadcastInDim S100000x64 ![] bcast_S_S100000x64 (constant S_ .f32 0x00000000#32)))
    (Host.dotGeneral dot_S100000x128_S128x64_S100000x64_1_0_0_1_n_n none (concatenate S100000x128 1 [⟨S100000x64, s⟩, ⟨S100000x64, x0⟩] concatenates_S100000x64_S100000x64_S100000x128_d1) (transpose S128x64 [1, 0] x5 transposes_S64x128_S128x64_1_0))
    (mulf (broadcastInDim S100000x64 ![0, 1] bcast_S1x64_S100000x64_0_1 (broadcastInDim S1x64 ![1] bcast_S64_S1x64_1 x6)) (Host.dotGeneral dot_S100000x128_S128x64_S100000x64_1_0_0_1_n_n none (concatenate S100000x128 1 [⟨S100000x64, s⟩, ⟨S100000x64, x0⟩] concatenates_S100000x64_S100000x64_S100000x128_d1) (transpose S128x64 [1, 0] x5 transposes_S64x128_S128x64_1_0)))

/-- The edge result's stage is the edge update of the gather stage. -/
theorem val_main_v19_stage (x0 : (⟨S100000x64, .f32⟩ : BufTy).Contents (Elt F)) (x1 : (⟨S2x1600000, .i32⟩ : BufTy).Contents (Elt F))
    (x2 : (⟨S1600000x32, .f32⟩ : BufTy).Contents (Elt F)) (x3 : (⟨S64x96, .f32⟩ : BufTy).Contents (Elt F)) (x4 : (⟨S64, .f32⟩ : BufTy).Contents (Elt F)) :
    val_main_v19 (F := F) x0 x1 x2 x3 x4 = edgeStage (val_main_v10 (F := F) x0 x1) x2 x3 x4 := rfl

/-- The summed messages' stage is the message sum of the receivers' column and the edge result's stage. -/
theorem val_main_v22_stage (x0 : (⟨S100000x64, .f32⟩ : BufTy).Contents (Elt F)) (x1 : (⟨S2x1600000, .i32⟩ : BufTy).Contents (Elt F))
    (x2 : (⟨S1600000x32, .f32⟩ : BufTy).Contents (Elt F)) (x3 : (⟨S64x96, .f32⟩ : BufTy).Contents (Elt F)) (x4 : (⟨S64, .f32⟩ : BufTy).Contents (Elt F)) :
    val_main_v22 (F := F) x0 x1 x2 x3 x4 = sumStage (val_main_v1 (F := F) x1) (val_main_v19 (F := F) x0 x1 x2 x3 x4) := rfl

/-- The node result's stage is the node update of the summed messages' stage. -/
theorem val_main_v31_stage (x0 : (⟨S100000x64, .f32⟩ : BufTy).Contents (Elt F)) (x1 : (⟨S2x1600000, .i32⟩ : BufTy).Contents (Elt F))
    (x2 : (⟨S1600000x32, .f32⟩ : BufTy).Contents (Elt F)) (x3 : (⟨S64x96, .f32⟩ : BufTy).Contents (Elt F)) (x4 : (⟨S64, .f32⟩ : BufTy).Contents (Elt F))
    (x5 : (⟨S64x128, .f32⟩ : BufTy).Contents (Elt F)) (x6 : (⟨S64, .f32⟩ : BufTy).Contents (Elt F)) :
    val_main_v31 (F := F) x0 x1 x2 x3 x4 x5 x6 = nodeStage (val_main_v22 (F := F) x0 x1 x2 x3 x4) x0 x5 x6 := rfl

/-- The first stretch leaves the gathered sender rows as the gather stage of the node and edge-list arguments. -/
theorem A_v10 (V : Valuation τ sig (Elt F)) :
    after (opsA (F := F)) V (Proc.devRef .tc main_v10)
      = val_main_v10 (F := F) (V (Proc.devRef .tc main_arg0)) (V (Proc.devRef .tc main_arg1)) := by
  after_results
  rfl

/-- The first stretch leaves the receivers' column as its stage of the edge-list argument. -/
theorem A_v1 (V : Valuation τ sig (Elt F)) :
    after (opsA (F := F)) V (Proc.devRef .tc main_v1) = val_main_v1 (F := F) (V (Proc.devRef .tc main_arg1)) := by
  after_results
  rfl

/-- The second stretch leaves the edge result as the edge update of what it found in the gathered rows and the arguments. -/
theorem B_v19 (V : Valuation τ sig (Elt F)) :
    after (opsB (F := F)) V (Proc.devRef .tc main_v19)
      = edgeStage (F := F) (V (Proc.devRef .tc main_v10)) (V (Proc.devRef .tc main_arg2)) (V (Proc.devRef .tc main_arg3)) (V (Proc.devRef .tc main_arg4)) := by
  after_results
  simp only [TRef.ofBuf, TRef.toBuf, cast_eq]
  rfl

/-- The third stretch leaves the summed messages as the message sum of what it found in the receivers' column and the edge result. -/
theorem C_v22 (V : Valuation τ sig (Elt F)) :
    after (opsC (F := F)) V (Proc.devRef .tc main_v22)
      = sumStage (F := F) (V (Proc.devRef .tc main_v1)) (V (Proc.devRef .tc main_v19)) := by
  after_results
  rfl

/-- The fourth stretch leaves the node result as the node update of what it found in the summed messages and the arguments. -/
theorem D_v31 (V : Valuation τ sig (Elt F)) :
    after (opsD (F := F)) V (Proc.devRef .tc main_v31)
      = nodeStage (F := F) (V (Proc.devRef .tc main_v22)) (V (Proc.devRef .tc main_arg0)) (V (Proc.devRef .tc main_arg5)) (V (Proc.devRef .tc main_arg6)) := by
  after_results
  simp only [TRef.ofBuf, TRef.toBuf, cast_eq]
  rfl

/-! What each stretch does not write it keeps. -/

theorem A_keep_arg0 (V : Valuation τ sig (Elt F)) :
    after (opsA (F := F)) V (Proc.devRef .tc main_arg0) = V (Proc.devRef .tc main_arg0) := by
  after_results

theorem A_keep_arg2 (V : Valuation τ sig (Elt F)) :
    after (opsA (F := F)) V (Proc.devRef .tc main_arg2) = V (Proc.devRef .tc main_arg2) := by
  after_results

theorem A_keep_arg3 (V : Valuation τ sig (Elt F)) :
    after (opsA (F := F)) V (Proc.devRef .tc main_arg3) = V (Proc.devRef .tc main_arg3) := by
  after_results

theorem A_keep_arg4 (V : Valuation τ sig (Elt F)) :
    after (opsA (F := F)) V (Proc.devRef .tc main_arg4) = V (Proc.devRef .tc main_arg4) := by
  after_results

theorem A_keep_arg5 (V : Valuation τ sig (Elt F)) :
    after (opsA (F := F)) V (Proc.devRef .tc main_arg5) = V (Proc.devRef .tc main_arg5) := by
  after_results

theorem A_keep_arg6 (V : Valuation τ sig (Elt F)) :
    after (opsA (F := F)) V (Proc.devRef .tc main_arg6) = V (Proc.devRef .tc main_arg6) := by
  after_results

theorem B_keep_v1 (V : Valuation τ sig (Elt F)) :
    after (opsB (F := F)) V (Proc.devRef .tc main_v1) = V (Proc.devRef .tc main_v1) := by
  after_results

theorem B_keep_arg0 (V : Valuation τ sig (Elt F)) :
    after (opsB (F := F)) V (Proc.devRef .tc main_arg0) = V (Proc.devRef .tc main_arg0) := by
  after_results

theorem B_keep_arg5 (V : Valuation τ sig (Elt F)) :
    after (opsB (F := F)) V (Proc.devRef .tc main_arg5) = V (Proc.devRef .tc main_arg5) := by
  after_results

theorem B_keep_arg6 (V : Valuation τ sig (Elt F)) :
    after (opsB (F := F)) V (Proc.devRef .tc main_arg6) = V (Proc.devRef .tc main_arg6) := by
  after_results

theorem C_keep_v19 (V : Valuation τ sig (Elt F)) :
    after (opsC (F := F)) V (Proc.devRef .tc main_v19) = V (Proc.devRef .tc main_v19) := by
  after_results

theorem C_keep_arg0 (V : Valuation τ sig (Elt F)) :
    after (opsC (F := F)) V (Proc.devRef .tc main_arg0) = V (Proc.devRef .tc main_arg0) := by
  after_results

theorem C_keep_arg5 (V : Valuation τ sig (Elt F)) :
    after (opsC (F := F)) V (Proc.devRef .tc main_arg5) = V (Proc.devRef .tc main_arg5) := by
  after_results

theorem C_keep_arg6 (V : Valuation τ sig (Elt F)) :
    after (opsC (F := F)) V (Proc.devRef .tc main_arg6) = V (Proc.devRef .tc main_arg6) := by
  after_results

theorem D_keep_v19 (V : Valuation τ sig (Elt F)) :
    after (opsD (F := F)) V (Proc.devRef .tc main_v19) = V (Proc.devRef .tc main_v19) := by
  after_results

/-! No operation writes an argument. -/

theorem all_keep_arg0 (V : Valuation τ sig (Elt F)) :
    after (ops (F := F)) V (Proc.devRef .tc main_arg0) = V (Proc.devRef .tc main_arg0) := by
  after_results

theorem all_keep_arg1 (V : Valuation τ sig (Elt F)) :
    after (ops (F := F)) V (Proc.devRef .tc main_arg1) = V (Proc.devRef .tc main_arg1) := by
  after_results

theorem all_keep_arg2 (V : Valuation τ sig (Elt F)) :
    after (ops (F := F)) V (Proc.devRef .tc main_arg2) = V (Proc.devRef .tc main_arg2) := by
  after_results

theorem all_keep_arg3 (V : Valuation τ sig (Elt F)) :
    after (ops (F := F)) V (Proc.devRef .tc main_arg3) = V (Proc.devRef .tc main_arg3) := by
  after_results

theorem all_keep_arg4 (V : Valuation τ sig (Elt F)) :
    after (ops (F := F)) V (Proc.devRef .tc main_arg4) = V (Proc.devRef .tc main_arg4) := by
  after_results

theorem all_keep_arg5 (V : Valuation τ sig (Elt F)) :
    after (ops (F := F)) V (Proc.devRef .tc main_arg5) = V (Proc.devRef .tc main_arg5) := by
  after_results

theorem all_keep_arg6 (V : Valuation τ sig (Elt F)) :
    after (ops (F := F)) V (Proc.devRef .tc main_arg6) = V (Proc.devRef .tc main_arg6) := by
  after_results

/-- The whole program leaves the edge result at its stage of the arguments it started from. -/
theorem fold_v19 (V : Valuation τ sig (Elt F)) :
    after (ops (F := F)) V (Proc.devRef .tc main_v19)
      = val_main_v19 (F := F) (V (Proc.devRef .tc main_arg0)) (V (Proc.devRef .tc main_arg1)) (V (Proc.devRef .tc main_arg2))
          (V (Proc.devRef .tc main_arg3)) (V (Proc.devRef .tc main_arg4)) := by
  rw [ops_split, StableHlo.after_append, StableHlo.after_append, StableHlo.after_append, D_keep_v19, C_keep_v19, B_v19, A_v10,
    A_keep_arg2, A_keep_arg3, A_keep_arg4, val_main_v19_stage]

/-- The whole program leaves the node result at its stage of the arguments it started from. -/
theorem fold_v31 (V : Valuation τ sig (Elt F)) :
    after (ops (F := F)) V (Proc.devRef .tc main_v31)
      = val_main_v31 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) (V (Proc.devRef .tc main_arg6)) := by
  rw [ops_split, StableHlo.after_append, StableHlo.after_append, StableHlo.after_append, D_v31, C_v22, B_keep_v1, A_v1, B_v19, A_v10,
    A_keep_arg2, A_keep_arg3, A_keep_arg4, C_keep_arg0, B_keep_arg0, A_keep_arg0, C_keep_arg5, B_keep_arg5, A_keep_arg5,
    C_keep_arg6, B_keep_arg6, A_keep_arg6, val_main_v31_stage, val_main_v22_stage, val_main_v19_stage]

end Stretches

/-- The reference's run: both results at the stages' functions of the launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v19) = val_main_v19 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (ValueP.run_after m ρ)
  exact ⟨(h c main_v31).trans (fold_v31 (F := Ideal) (launchContents m c)),
    (h c main_v19).trans (fold_v19 (F := Ideal) (launchContents m c)),
    (h c main_arg0).trans (all_keep_arg0 (F := Ideal) (launchContents m c)),
    (h c main_arg1).trans (all_keep_arg1 (F := Ideal) (launchContents m c)),
    (h c main_arg2).trans (all_keep_arg2 (F := Ideal) (launchContents m c)),
    (h c main_arg3).trans (all_keep_arg3 (F := Ideal) (launchContents m c)),
    (h c main_arg4).trans (all_keep_arg4 (F := Ideal) (launchContents m c)),
    (h c main_arg5).trans (all_keep_arg5 (F := Ideal) (launchContents m c)),
    (h c main_arg6).trans (all_keep_arg6 (F := Ideal) (launchContents m c))⟩

/-- The contraction over the 96 joined columns is the contraction over the 64 gathered columns plus the one over the
    32 edge columns: the joined row reads its left part below column 64 and its right part from column 64 on, and the
    transposed weight at row `k`, column `q` is the weight at row `q`, column `k`. -/
theorem dot_edge (g : FVec Ideal S1600000x64 .f32) (x2 : FVec Ideal S1600000x32 .f32) (x3 : FVec Ideal S64x96 .f32)
    (r : Fin 1600000) (q : Fin 64) :
    (∑ k : Fin 96, (concatenate S1600000x96 1 [⟨S1600000x64, g⟩, ⟨S1600000x32, x2⟩] concatenates_S1600000x64_S1600000x32_S1600000x96_d1) (lidx_main_v13 (ix2 r q) k)
        * (val_main_v12 (F := Ideal) x3) (ridx_main_v13 (ix2 r q) k))
      = (∑ k : Fin 64, g (ix2 r k) * (Cert.Spec.wT 0 64 x3) (ix2 k q)) + ∑ k : Fin 32, x2 (ix2 r k) * (Cert.Spec.wT 64 32 x3) (ix2 k q) := by
  refine (Fin.sum_univ_add (a := 64) (b := 32) _).trans ?_
  congr 1
  · refine Finset.sum_congr rfl fun k _ => ?_
    congr 1
    · exact concatenate_pair_apply_left 1 g x2 concatenates_S1600000x64_S1600000x32_S1600000x96_d1 _ rfl (ix2 r k)
        (fun b => match b with | ⟨0, _⟩ => rfl | ⟨1, _⟩ => rfl)
    · rw [val_main_v12_apply]
      unfold Cert.Spec.wT
      exact congrArg x3 (funext fun a => Fin.ext (by
        match a with
        | ⟨0, _⟩ => rfl
        | ⟨1, _⟩ => show k.val = 0 + k.val; omega))
  · refine Finset.sum_congr rfl fun k _ => ?_
    congr 1
    · exact concatenate_pair_apply_right 1 g x2 concatenates_S1600000x64_S1600000x32_S1600000x96_d1 _ rfl rfl (ix2 r k)
        (fun b => match b with | ⟨0, _⟩ => fun _ => rfl | ⟨1, _⟩ => fun h => absurd rfl h)
        (by show k.val + 64 = 64 + k.val; omega)
    · rw [val_main_v12_apply]
      unfold Cert.Spec.wT
      exact congrArg x3 (funext fun a => Fin.ext (by
        match a with
        | ⟨0, _⟩ => rfl
        | ⟨1, _⟩ => rfl))

/-- The updated edge features: a linear layer over [gathered sender row | edge row], then PReLU. -/
theorem edge_eq (x0 : FVec Ideal S100000x64 .f32) (x1 : IVec S2x1600000 32) (x2 : FVec Ideal S1600000x32 .f32)
    (x3 : FVec Ideal S64x96 .f32) (x4 : FVec Ideal S64 .f32) :
    val_main_v19 (F := Ideal) x0 x1 x2 x3 x4
      = Cert.Spec.splitLin (val_main_v10 (F := Ideal) x0 x1) x2 (Cert.Spec.wT 0 64 x3) (Cert.Spec.wT 64 32 x3) (Cert.Spec.αRow x4) := by
  funext i
  obtain ⟨r, q, rfl⟩ : ∃ (r : Fin 1600000) (q : Fin 64), i = ix2 r q := ⟨i 0, i 1, eq_ix2 i⟩
  have hd : val_main_v13 (F := Ideal) x0 x1 x2 x3 (ix2 r q)
      = (∑ k : Fin 64, val_main_v10 (F := Ideal) x0 x1 (ix2 r k) * (Cert.Spec.wT 0 64 x3) (ix2 k q))
        + ∑ k : Fin 32, x2 (ix2 r k) * (Cert.Spec.wT 64 32 x3) (ix2 k q) := by
    rw [val_main_v13_apply]
    unfold val_main_v11
    exact dot_edge (val_main_v10 (F := Ideal) x0 x1) x2 x3 r q
  rw [val_main_v19_apply, val_main_v15_apply, val_main_v18_apply, val_main_v14_apply, val_main_cst_apply,
    val_main_v17_apply, val_main_v16_apply, hd]
  have hα : x4 (idx_main_v16 (idx_main_v17 (ix2 r q))) = x4 (ix1 q) :=
    congrArg x4 (funext fun a => by match a with | ⟨0, _⟩ => rfl)
  rw [hα]
  rfl

/-- The contraction over the 128 joined columns is the contraction over the 64 columns of summed messages plus the one
    over the 64 node columns. -/
theorem dot_node (s : FVec Ideal S100000x64 .f32) (x0 : FVec Ideal S100000x64 .f32) (x5 : FVec Ideal S64x128 .f32)
    (r : Fin 100000) (q : Fin 64) :
    (∑ k : Fin 128, (concatenate S100000x128 1 [⟨S100000x64, s⟩, ⟨S100000x64, x0⟩] concatenates_S100000x64_S100000x64_S100000x128_d1) (lidx_main_v25 (ix2 r q) k)
        * (val_main_v24 (F := Ideal) x5) (ridx_main_v25 (ix2 r q) k))
      = (∑ k : Fin 64, s (ix2 r k) * (Cert.Spec.wT 0 64 x5) (ix2 k q)) + ∑ k : Fin 64, x0 (ix2 r k) * (Cert.Spec.wT 64 64 x5) (ix2 k q) := by
  refine (Fin.sum_univ_add (a := 64) (b := 64) _).trans ?_
  congr 1
  · refine Finset.sum_congr rfl fun k _ => ?_
    congr 1
    · exact concatenate_pair_apply_left 1 s x0 concatenates_S100000x64_S100000x64_S100000x128_d1 _ rfl (ix2 r k)
        (fun b => match b with | ⟨0, _⟩ => rfl | ⟨1, _⟩ => rfl)
    · rw [val_main_v24_apply]
      unfold Cert.Spec.wT
      exact congrArg x5 (funext fun a => Fin.ext (by
        match a with
        | ⟨0, _⟩ => rfl
        | ⟨1, _⟩ => show k.val = 0 + k.val; omega))
  · refine Finset.sum_congr rfl fun k _ => ?_
    congr 1
    · exact concatenate_pair_apply_right 1 s x0 concatenates_S100000x64_S100000x64_S100000x128_d1 _ rfl rfl (ix2 r k)
        (fun b => match b with | ⟨0, _⟩ => fun _ => rfl | ⟨1, _⟩ => fun h => absurd rfl h)
        (by show k.val + 64 = 64 + k.val; omega)
    · rw [val_main_v24_apply]
      unfold Cert.Spec.wT
      exact congrArg x5 (funext fun a => Fin.ext (by
        match a with
        | ⟨0, _⟩ => rfl
        | ⟨1, _⟩ => rfl))

/-- The updated node features: a linear layer over [summed messages | node row], then PReLU. -/
theorem node_eq (x0 : FVec Ideal S100000x64 .f32) (x1 : IVec S2x1600000 32) (x2 : FVec Ideal S1600000x32 .f32)
    (x3 : FVec Ideal S64x96 .f32) (x4 : FVec Ideal S64 .f32) (x5 : FVec Ideal S64x128 .f32) (x6 : FVec Ideal S64 .f32) :
    val_main_v31 (F := Ideal) x0 x1 x2 x3 x4 x5 x6
      = Cert.Spec.splitLin (val_main_v22 (F := Ideal) x0 x1 x2 x3 x4) x0 (Cert.Spec.wT 0 64 x5) (Cert.Spec.wT 64 64 x5) (Cert.Spec.αRow x6) := by
  funext i
  obtain ⟨r, q, rfl⟩ : ∃ (r : Fin 100000) (q : Fin 64), i = ix2 r q := ⟨i 0, i 1, eq_ix2 i⟩
  have hd : val_main_v25 (F := Ideal) x0 x1 x2 x3 x4 x5 (ix2 r q)
      = (∑ k : Fin 64, val_main_v22 (F := Ideal) x0 x1 x2 x3 x4 (ix2 r k) * (Cert.Spec.wT 0 64 x5) (ix2 k q))
        + ∑ k : Fin 64, x0 (ix2 r k) * (Cert.Spec.wT 64 64 x5) (ix2 k q) := by
    rw [val_main_v25_apply]
    unfold val_main_v23
    exact dot_node (val_main_v22 (F := Ideal) x0 x1 x2 x3 x4) x0 x5 r q
  rw [val_main_v31_apply, val_main_v27_apply, val_main_v30_apply, val_main_v26_apply, val_main_cst_2_apply,
    val_main_v29_apply, val_main_v28_apply, hd]
  have hα : x6 (idx_main_v28 (idx_main_v29 (ix2 r q))) = x6 (ix1 q) :=
    congrArg x6 (funext fun a => by match a with | ⟨0, _⟩ => rfl)
  rw [hα]
  rfl

end Cert.ReferenceIdeal.RefValue

end
-- ==== Proof.Bridge.lean ====
import proofs.«402400_j85650237817502_4_alg».proof.Proof.Reference
import proofs.«402400_j85650237817502_4_alg».proof.Proof.KernelResults

noncomputable section

namespace Cert.Bridge

open Idealize.ShloMosaic

/-! ## The reference's stages are the same functions of the arguments

Both programs take the sender rows by ONE `stablehlo.gather` at the same start indices and sum the messages by ONE
`stablehlo.scatter` at the same receivers: the two host values are carried whole, never opened. -/

/-- The reference's gathered sender rows are the plain gather at the wrapped senders. -/
theorem ref_gathered (x0 : FVec Ideal Cert.KernelIdeal.S100000x64 .f32) (x1 : IVec Cert.KernelIdeal.S2x1600000 32) :
    Cert.ReferenceIdeal.ReadP.val_main_v10 (F := Ideal) x0 x1
      = Host.gather Cert.KernelIdeal.gather_S100000x64_S1600000x1_S1600000x64_1_0_n_n_0_1_164 x0
          (Cert.KernelIdeal.HostSide.startIdx (Cert.KernelIdeal.HostSide.senders x1)) := rfl

/-- The reference's updated edge features. -/
theorem ref_edges (x0 : FVec Ideal Cert.KernelIdeal.S100000x64 .f32) (x1 : IVec Cert.KernelIdeal.S2x1600000 32) (x2 : FVec Ideal Cert.KernelIdeal.S1600000x32 .f32)
    (x3 : FVec Ideal Cert.KernelIdeal.S64x96 .f32) (x4 : FVec Ideal Cert.KernelIdeal.S64 .f32) :
    Cert.ReferenceIdeal.ReadP.val_main_v19 (F := Ideal) x0 x1 x2 x3 x4 = Cert.KernelIdeal.Results.edgesOut x0 x1 x2 x3 x4 := by
  rw [Cert.ReferenceIdeal.RefValue.edge_eq, ref_gathered]
  rfl

/-- The reference's summed messages are the scatter-add of its updated edge features at the receivers. -/
theorem ref_summed (x0 : FVec Ideal Cert.KernelIdeal.S100000x64 .f32) (x1 : IVec Cert.KernelIdeal.S2x1600000 32) (x2 : FVec Ideal Cert.KernelIdeal.S1600000x32 .f32)
    (x3 : FVec Ideal Cert.KernelIdeal.S64x96 .f32) (x4 : FVec Ideal Cert.KernelIdeal.S64 .f32) :
    Cert.ReferenceIdeal.ReadP.val_main_v22 (F := Ideal) x0 x1 x2 x3 x4
      = Host.scatterAdd Cert.KernelIdeal.scatter_S100000x64_S1600000x1_S1600000x64_1_0_0_1
          (broadcastInDim Cert.KernelIdeal.S100000x64 ![] Cert.KernelIdeal.Facts₀.bcast_S_S100000x64 (constant (F := Ideal) Cert.KernelIdeal.S_ .f32 0x00000000#32))
          (broadcastInDim Cert.KernelIdeal.S1600000x1 ![0] Cert.KernelIdeal.Facts₀.bcast_S1600000_S1600000x1_0 (Cert.KernelIdeal.HostSide.receivers x1))
          (Cert.ReferenceIdeal.ReadP.val_main_v19 (F := Ideal) x0 x1 x2 x3 x4) := rfl

/-- The reference's updated node features. -/
theorem ref_nodes (x0 : FVec Ideal Cert.KernelIdeal.S100000x64 .f32) (x1 : IVec Cert.KernelIdeal.S2x1600000 32) (x2 : FVec Ideal Cert.KernelIdeal.S1600000x32 .f32)
    (x3 : FVec Ideal Cert.KernelIdeal.S64x96 .f32) (x4 : FVec Ideal Cert.KernelIdeal.S64 .f32) (x5 : FVec Ideal Cert.KernelIdeal.S64x128 .f32) (x6 : FVec Ideal Cert.KernelIdeal.S64 .f32) :
    Cert.ReferenceIdeal.ReadP.val_main_v31 (F := Ideal) x0 x1 x2 x3 x4 x5 x6 = Cert.KernelIdeal.Results.nodesOut x0 x1 x2 x3 x4 x5 x6 := by
  rw [Cert.ReferenceIdeal.RefValue.node_eq, ref_summed, ref_edges]
  rfl

end Cert.Bridge

end
-- ==== Proof.lean ====
/- The certificate of one graph-network layer: for every edge, PReLU of a linear map of [sender's node row | edge row];
   the results summed onto the receiving nodes; for every node, PReLU of a linear map of [summed messages | node row].
   The kernel program splits each linear map in two products (one per part of the joined row) and adds them, tile by
   tile of rows; the reference joins the rows and takes one product. On the extended reals a sum over the joined index
   range is the sum over its two parts, so the two agree entry by entry, with no appeal to finiteness. The gather of
   the sender rows differs between the two programs only where a sender lies outside the node table (the kernel's
   fills the row, the reference's clamps the index); the precondition keeps every sender inside it. -/
import proofs.«402400_j85650237817502_4_alg».proof.Defs
import proofs.«402400_j85650237817502_4_alg».proof.Proof.Gen.Kernel
import proofs.«402400_j85650237817502_4_alg».proof.Proof.Gen.Kernel.Skeleton
import proofs.«402400_j85650237817502_4_alg».proof.Proof.Gen.Kernel.Launch
import proofs.«402400_j85650237817502_4_alg».proof.Proof.Gen.Kernel.Points
import proofs.«402400_j85650237817502_4_alg».proof.Proof.Gen.Kernel.Frame
import proofs.«402400_j85650237817502_4_alg».proof.Proof.Gen.KernelIdeal
import proofs.«402400_j85650237817502_4_alg».proof.Proof.Gen.KernelIdeal.Skeleton
import proofs.«402400_j85650237817502_4_alg».proof.Proof.Gen.KernelIdeal.Launch
import proofs.«402400_j85650237817502_4_alg».proof.Proof.Gen.KernelIdeal.Points
import proofs.«402400_j85650237817502_4_alg».proof.Proof.Gen.KernelIdeal.Frame
import proofs.«402400_j85650237817502_4_alg».proof.Proof.Gen.ReferenceIdeal
import proofs.«402400_j85650237817502_4_alg».proof.Proof.Gen.Pre_finite_inputs
import proofs.«402400_j85650237817502_4_alg».proof.Proof.KernelResults
import proofs.«402400_j85650237817502_4_alg».proof.Proof.Reference
import proofs.«402400_j85650237817502_4_alg».proof.Proof.Bridge
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves its arguments as launched: its run, the two results dropped. -/
theorem frame_reference : Cert.frame_ReferenceIdeal := fun m ρ _ =>
  (θ_run Cert.ReferenceIdeal.defs _ _).mono (fun _ h c => (h c).2.2) (Cert.ReferenceIdeal.RefValue.run m ρ)

/-- From memories that agree on the arguments both programs end with the updated node features and the updated edge
    features at the same two functions of the arguments. -/
theorem algebraic : Cert.algebraic_KernelIdeal_ReferenceIdeal := by
  intro m ρ m' ρ' hpre hagree
  refine ⟨fun c => Cert.KernelIdeal.Results.nodesOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.KernelIdeal.Results.edgesOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Results.run m ρ hpre, ?_⟩
  refine (θ_run Cert.ReferenceIdeal.defs _ _).mono (fun r h c => ?_) (Cert.ReferenceIdeal.RefValue.run m' ρ')
  obtain ⟨h31, h19, k0, k1, k2, k3, k4, k5, k6⟩ := h c
  obtain ⟨a0, a1, a2, a3, a4, a5, a6⟩ := hagree c
  refine ⟨h31.trans ?_, h19.trans ?_, k0, k1, k2, k3, k4, k5, k6⟩
  · rw [a0, a1, a2, a3, a4, a5, a6]
    exact Cert.Bridge.ref_nodes _ _ _ _ _ _ _
  · rw [a0, a1, a2, a3, a4]
    exact Cert.Bridge.ref_edges _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
